-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4x1024 .f32) (main_arg8 : FVec F S1024 .f32) (main_arg9 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S256x1024 : Shape := ⟨2, ![256, 1024]⟩
abbrev S256x4096 : Shape := ⟨2, ![256, 4096]⟩
abbrev S1x4096 : Shape := ⟨2, ![1, 4096]⟩
abbrev S1x1024 : Shape := ⟨2, ![1, 1024]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S8192x1024, .bf16⟩
  | .hbm, ⟨11, _⟩ => ⟨S8192x1024, .bf16⟩
  | .hbm, ⟨12, _⟩ => ⟨S4096x1024, .bf16⟩
  | .hbm, ⟨13, _⟩ => ⟨S4096x1024, .bf16⟩
  | .hbm, ⟨14, _⟩ => ⟨S8192x1024, .f32⟩
  | .hbm, ⟨15, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S4096, .f32⟩
  | .local _ .vmem, ⟨9, _⟩ => ⟨S4x1024, .f32⟩
  | .local _ .vmem, ⟨10, _⟩ => ⟨S4x1024, .f32⟩
  | .local _ .vmem, ⟨11, _⟩ => ⟨S1024, .f32⟩
  | .local _ .vmem, ⟨12, _⟩ => ⟨S1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  reduces_S256x1024_S256 : S256x1024.Reduces [1] S256
  shapeCasts_S256_S256x1 : S256.ShapeCasts S256x1
  broadcasts_S256x1_S256x1024 : S256x1.Broadcasts S256x1024
  shapeCasts_S1024_S1x1024 : S1024.ShapeCasts S1x1024
  broadcasts_S1x1024_S256x1024 : S1x1024.Broadcasts S256x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  inb_S1024_S1024_0 : ∀ a, (![0] : Fin 1 → Nat) a + S1024.size a ≤ S1024.size a
  h_S1024 : 0 < S1024.numel
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S8192x4096 : Shape := ⟨2, ![8192, 4096]⟩
abbrev S1x4096 : Shape := ⟨2, ![1, 4096]⟩
abbrev S8192x4x1024 : Shape := ⟨3, ![8192, 4, 1024]⟩
abbrev S_ : Shape := ⟨0, ![]⟩
abbrev S8192x4 : Shape := ⟨2, ![8192, 4]⟩
abbrev S8192x4x1 : Shape := ⟨3, ![8192, 4, 1]⟩
abbrev S1x4x1024 : Shape := ⟨3, ![1, 4, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S4096x1024, .f32⟩
  | 4 => ⟨S4096, .f32⟩
  | 5 => ⟨S4096x1024, .f32⟩
  | 6 => ⟨S4x1024, .f32⟩
  | 7 => ⟨S4x1024, .f32⟩
  | 8 => ⟨S1024, .f32⟩
  | 9 => ⟨S1024, .f32⟩
  | 10 => ⟨S8192x4096, .f32⟩
  | 11 => ⟨S1x4096, .f32⟩
  | 12 => ⟨S8192x4096, .f32⟩
  | 13 => ⟨S8192x4096, .f32⟩
  | 14 => ⟨S8192x4096, .f32⟩
  | 15 => ⟨S8192x4096, .f32⟩
  | 16 => ⟨S8192x4x1024, .f32⟩
  | 17 => ⟨S_, .f32⟩
  | 18 => ⟨S8192x4, .f32⟩
  | 19 => ⟨S8192x4x1, .f32⟩
  | 20 => ⟨S_, .f32⟩
  | 21 => ⟨S8192x4x1, .f32⟩
  | 22 => ⟨S8192x4x1, .f32⟩
  | 23 => ⟨S_, .i32⟩
  | 24 => ⟨S_, .f32⟩
  | 25 => ⟨S8192x4, .f32⟩
  | 26 => ⟨S8192x4x1, .f32⟩
  | 27 => ⟨S_, .f32⟩
  | 28 => ⟨S8192x4x1, .f32⟩
  | 29 => ⟨S8192x4x1, .f32⟩
  | 30 => ⟨S8192x4x1024, .f32⟩
  | 31 => ⟨S8192x4x1024, .f32⟩
  | 32 => ⟨S8192x4x1024, .f32⟩
  | 33 => ⟨S_, .f32⟩
  | 34 => ⟨S_, .f32⟩
  | 35 => ⟨S_, .f32⟩
  | 36 => ⟨S_, .f32⟩
  | 37 => ⟨S8192x4, .f32⟩
  | 38 => ⟨S8192x4x1, .f32⟩
  | 39 => ⟨S8192x4x1, .f32⟩
  | 40 => ⟨S8192x4x1, .f32⟩
  | 41 => ⟨S_, .f32⟩
  | 42 => ⟨S_, .i1⟩
  | 43 => ⟨S_, .f32⟩
  | 44 => ⟨S_, .f32⟩
  | 45 => ⟨S8192x4x1, .f32⟩
  | 46 => ⟨S8192x4x1, .f32⟩
  | 47 => ⟨S8192x4x1, .f32⟩
  | 48 => ⟨S8192x4x1024, .f32⟩
  | 49 => ⟨S8192x4x1024, .f32⟩
  | 50 => ⟨S1x4x1024, .f32⟩
  | 51 => ⟨S8192x4x1024, .f32⟩
  | 52 => ⟨S8192x4x1024, .f32⟩
  | 53 => ⟨S_, .f32⟩
  | 54 => ⟨S8192x4x1, .f32⟩
  | 55 => ⟨S8192x4x1, .f32⟩
  | 56 => ⟨S8192x4x1024, .f32⟩
  | 57 => ⟨S8192x4x1024, .f32⟩
  | 58 => ⟨S1x4x1024, .f32⟩
  | 59 => ⟨S8192x4x1024, .f32⟩
  | 60 => ⟨S8192x4x1024, .f32⟩
  | 61 => ⟨S8192x1x1024, .f32⟩
  | 62 => ⟨S8192x1024, .f32⟩
  | 63 => ⟨S8192x1x1024, .f32⟩
  | 64 => ⟨S8192x1024, .f32⟩
  | 65 => ⟨S8192x1x1024, .f32⟩
  | 66 => ⟨S8192x1024, .f32⟩
  | 67 => ⟨S8192x1x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .i32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x1024, .f32⟩
  | 106 => ⟨S8192x1024, .f32⟩
  | 107 => ⟨S8192x1024, .f32⟩
  | 108 => ⟨S_, .f32⟩
  | 109 => ⟨S_, .f32⟩
  | 110 => ⟨S_, .f32⟩
  | 111 => ⟨S_, .f32⟩
  | 112 => ⟨S8192, .f32⟩
  | 113 => ⟨S8192x1, .f32⟩
  | 114 => ⟨S8192x1, .f32⟩
  | 115 => ⟨S8192x1, .f32⟩
  | 116 => ⟨S_, .f32⟩
  | 117 => ⟨S_, .i1⟩
  | 118 => ⟨S_, .f32⟩
  | 119 => ⟨S_, .f32⟩
  | 120 => ⟨S8192x1, .f32⟩
  | 121 => ⟨S8192x1, .f32⟩
  | 122 => ⟨S8192x1, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_cst_1 : Ref sig .tc := ⟨.hbm, 34, rfl⟩
abbrev main_call0_call0_v8 : Ref sig .tc := ⟨.hbm, 35, rfl⟩
abbrev main_call0_call0_cst_2 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_cst_3 : Ref sig .tc := ⟨.hbm, 41, rfl⟩
abbrev main_call0_call0_v13 : Ref sig .tc := ⟨.hbm, 42, rfl⟩
abbrev main_call0_call0_cst_4 : Ref sig .tc := ⟨.hbm, 43, rfl⟩
abbrev main_call0_call0_call0_v0 : Ref sig .tc := ⟨.hbm, 44, rfl⟩
abbrev main_call0_call0_call0_v1 : Ref sig .tc := ⟨.hbm, 45, rfl⟩
abbrev main_call0_v0 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_5 : Ref sig .tc := ⟨.hbm, 83, rfl⟩
abbrev main_v43 : Ref sig .tc := ⟨.hbm, 84, rfl⟩
abbrev main_v44 : Ref sig .tc := ⟨.hbm, 85, rfl⟩
abbrev main_cst_6 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_7 : Ref sig .tc := ⟨.hbm, 92, rfl⟩
abbrev main_v50 : Ref sig .tc := ⟨.hbm, 93, rfl⟩
abbrev main_v51 : Ref sig .tc := ⟨.hbm, 94, rfl⟩
abbrev main_cst_8 : Ref sig .tc := ⟨.hbm, 95, rfl⟩
abbrev main_v52 : Ref sig .tc := ⟨.hbm, 96, rfl⟩
abbrev main_v53 : Ref sig .tc := ⟨.hbm, 97, rfl⟩
abbrev main_c_9 : Ref sig .tc := ⟨.hbm, 98, rfl⟩
abbrev main_call1_call0_cst : Ref sig .tc := ⟨.hbm, 99, rfl⟩
abbrev main_call1_call0_v0 : Ref sig .tc := ⟨.hbm, 100, rfl⟩
abbrev main_call1_call0_v1 : Ref sig .tc := ⟨.hbm, 101, rfl⟩
abbrev main_call1_call0_cst_0 : Ref sig .tc := ⟨.hbm, 102, rfl⟩
abbrev main_call1_call0_v2 : Ref sig .tc := ⟨.hbm, 103, rfl⟩
abbrev main_call1_call0_v3 : Ref sig .tc := ⟨.hbm, 104, rfl⟩
abbrev main_call1_call0_v4 : Ref sig .tc := ⟨.hbm, 105, rfl⟩
abbrev main_call1_call0_v5 : Ref sig .tc := ⟨.hbm, 106, rfl⟩
abbrev main_call1_call0_v6 : Ref sig .tc := ⟨.hbm, 107, rfl⟩
abbrev main_call1_call0_v7 : Ref sig .tc := ⟨.hbm, 108, rfl⟩
abbrev main_call1_call0_cst_1 : Ref sig .tc := ⟨.hbm, 109, rfl⟩
abbrev main_call1_call0_v8 : Ref sig .tc := ⟨.hbm, 110, rfl⟩
abbrev main_call1_call0_cst_2 : Ref sig .tc := ⟨.hbm, 111, rfl⟩
abbrev main_call1_call0_v9 : Ref sig .tc := ⟨.hbm, 112, rfl⟩
abbrev main_call1_call0_v10 : Ref sig .tc := ⟨.hbm, 113, rfl⟩
abbrev main_call1_call0_v11 : Ref sig .tc := ⟨.hbm, 114, rfl⟩
abbrev main_call1_call0_v12 : Ref sig .tc := ⟨.hbm, 115, rfl⟩
abbrev main_call1_call0_cst_3 : Ref sig .tc := ⟨.hbm, 116, rfl⟩
abbrev main_call1_call0_v13 : Ref sig .tc := ⟨.hbm, 117, rfl⟩
abbrev main_call1_call0_cst_4 : Ref sig .tc := ⟨.hbm, 118, rfl⟩
abbrev main_call1_call0_call0_v0 : Ref sig .tc := ⟨.hbm, 119, rfl⟩
abbrev main_call1_call0_call0_v1 : Ref sig .tc := ⟨.hbm, 120, rfl⟩
abbrev main_call1_v0 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_cst_10 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_11 : Ref sig .tc := ⟨.hbm, 139, rfl⟩
abbrev main_v70 : Ref sig .tc := ⟨.hbm, 140, rfl⟩
abbrev main_v71 : Ref sig .tc := ⟨.hbm, 141, rfl⟩
abbrev main_cst_12 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4x1024 : S8192x4096.ShapeCasts S8192x4x1024
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  bcast_S_S8192x1024 : S_.BroadcastsInDim S8192x1024 (![] : Fin 0 → Fin S8192x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  What the LSTM cell with layer-normalised gates computes, row by row, over the extended reals.

  One batch row enters as three rows of 1024 numbers: the input `xr`, the hidden state `hr` and the cell state `cr`.
  The pre-activations of the row are the 4096 numbers `lin`: entry `k` is the dot product of `xr` with row `k` of the
  input weights, plus the dot product of `hr` with row `k` of the hidden weights, plus bias `k`. They split into four
  gates of 1024 consecutive entries (`gate g`: entries g·1024 … g·1024 + 1023, in the order i, f, g, o). Each gate is
  layer-normalised along the row with its own scale and shift (`ln`: the deviation from the row's mean, times the scale,
  over the row's standard deviation with divisor 1023 plus a small constant, plus the shift). The new cell row is the
  layer norm, with the cell's own scale and shift, of
      cr · σ(f + 1) + σ(i) · tanh(g),
  and the new hidden row is tanh(new cell) · σ(o). Every operation is the exact one on the extended reals, with the
  library's conventions at the infinities; the four literals are kept as the binary words both programs spell.
-/
import Idealize.ShloMosaic.PureOps.Ideal

noncomputable section

namespace Cert.Spec

open Idealize.ShloMosaic
open scoped BigOperators

/-- The small constant added to a standard deviation (the single-precision word nearest 10⁻⁶). -/
def eps : EReal := Ideal.ofBits .f32 0x358637BD#32
/-- The row length, 1024. -/
def n1024 : EReal := Ideal.ofBits .f32 0x44800000#32
/-- The variance's divisor, 1023. -/
def n1023 : EReal := Ideal.ofBits .f32 0x447FC000#32
/-- The forget gate's offset, 1. -/
def one : EReal := Ideal.ofBits .f32 0x3F800000#32

/-- A row's mean. -/
def mean (u : Fin 1024 → EReal) : EReal := Ideal.div (∑ j, u j) n1024

/-- An entry's deviation from its row's mean. -/
def dev (u : Fin 1024 → EReal) (j : Fin 1024) : EReal := u j - mean u

/-- A row's standard deviation, the sum of squared deviations over 1023. -/
def std (u : Fin 1024 → EReal) : EReal := Ideal.sqrt (Ideal.div (∑ j, dev u j * dev u j) n1023)

/-- Layer normalisation of the row `u` with scale `γ` and shift `β`, at entry `j`. -/
def ln (γ β u : Fin 1024 → EReal) (j : Fin 1024) : EReal := Ideal.div (γ j * dev u j) (std u + eps) + β j

/-- The row's 4096 pre-activations. -/
def lin (xr hr : Fin 1024 → EReal) (wih whh : Fin 4096 → Fin 1024 → EReal) (b : Fin 4096 → EReal) (k : Fin 4096) : EReal :=
  (∑ i, xr i * wih k i) + (∑ i, hr i * whh k i) + b k

/-- Gate `g` of a row of 4096: its entries g·1024 … g·1024 + 1023. -/
def gate (g : Fin 4) (v : Fin 4096 → EReal) (j : Fin 1024) : EReal := v ⟨g.val * 1024 + j.val, by omega⟩

/-- The normalised gate `g` of the pre-activations `v`, with row `g` of the gates' scales and shifts. -/
def ngate (g : Fin 4) (γ β : Fin 4 → Fin 1024 → EReal) (v : Fin 4096 → EReal) : Fin 1024 → EReal := ln (γ g) (β g) (gate g v)

/-- The cell row before its own normalisation: cr · σ(f + 1) + σ(i) · tanh(g). -/
def cellRaw (γ β : Fin 4 → Fin 1024 → EReal) (v : Fin 4096 → EReal) (cr : Fin 1024 → EReal) (j : Fin 1024) : EReal :=
  cr j * Ideal.logistic (ngate 1 γ β v j + one) + Ideal.logistic (ngate 0 γ β v j) * Ideal.tanh (ngate 2 γ β v j)

/-- The new cell row. -/
def newC (γ β : Fin 4 → Fin 1024 → EReal) (γc βc : Fin 1024 → EReal) (v : Fin 4096 → EReal) (cr : Fin 1024 → EReal) :
    Fin 1024 → EReal := ln γc βc (cellRaw γ β v cr)

/-- The new hidden row. -/
def newH (γ β : Fin 4 → Fin 1024 → EReal) (γc βc : Fin 1024 → EReal) (v : Fin 4096 → EReal) (cr : Fin 1024 → EReal)
    (j : Fin 1024) : EReal := Ideal.tanh (newC γ β γc βc v cr j) * Ideal.logistic (ngate 3 γ β v j)

end Cert.Spec

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KLin.lean ====
/-
  The kernel's pre-activations at an index.

  The body multiplies its 256-row input block by the transposed input weights, its 256-row hidden-state block by the
  transposed hidden weights (both products into a zero accumulator, contracting the second axis of both operands), adds
  the two and adds the bias row to every row. Over the extended reals entry (p, k) of the result is the row function
  `Spec.lin` of row p of the two blocks.
-/
import proofs.«166081_j78262894067860_1_alg».proof.Proof.Gen.KernelIdeal.Skeleton
import proofs.«166081_j78262894067860_1_alg».proof.Proof.Spec
import proofs.«166081_j78262894067860_1_alg».proof.Proof.LibDotFormats
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- Entry (p, k) of the block's pre-activations. -/
theorem pay3_apply (v0 v2 : Vec Ideal S256x1024 .bf16) (v4 v6 : Vec Ideal S4096x1024 .bf16) (v11 : Vec Ideal S4096 .f32)
    (p : Fin 256) (k : Fin 4096) :
    k0_pay3 (F := Ideal) v0 v2 v4 v6 v11 (ix2 p k)
      = Spec.lin (fun i => v0 (ix2 p i)) (fun i => v2 (ix2 p i)) (fun a i => v4 (ix2 a i)) (fun a i => v6 (ix2 a i))
          (fun a => v11 (ix1 a)) k := by
  unfold k0_pay3 Spec.lin
  simp only [shapeCast_self]
  rw [addf_apply, addf_apply]
  simp only [matmul]
  rw [Cert.LibDotFormats.matmul_rows_zero_apply _ rfl rfl rfl rfl rfl rfl none v0 v4 p k,
    Cert.LibDotFormats.matmul_rows_zero_apply _ rfl rfl rfl rfl rfl rfl none v2 v6 p k,
    broadcastTo_1b_ab_apply, shapeCast_a_1a_apply]

end Cert.KernelIdeal.Body

end
-- ==== Proof.KNorm.lean ====
/-
  The kernel's layer norm of a 256 × 1024 block at an index.

  `kln g b x` is the body's layer norm as the body spells it: the row sums over 1024, the mean's column broadcast along
  the row, the deviations, their squares' row sums over 1023, the square root, the scale row times the deviations over
  the standard deviation's column plus the small constant, plus the shift row. At (p, q) it is `Spec.ln` of row p.
-/
import proofs.«166081_j78262894067860_1_alg».proof.Proof.Gen.KernelIdeal.Skeleton
import proofs.«166081_j78262894067860_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable {F : FTy → Type} [FloatOps F]

/-- The column of row means. -/
def kmean (x : FVec F S256x1024 .f32) : FVec F S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- The deviations from the row means. -/
def kdev (x : FVec F S256x1024 .f32) : FVec F S256x1024 .f32 :=
  subf x (broadcastTo S256x1024 (kmean x) broadcasts_S256x1_S256x1024)

/-- The row sums of the squared deviations. -/
def ksq (x : FVec F S256x1024 .f32) : FVec F S256 .f32 :=
  multiReduction .add [1] S256 (mulf (kdev x) (kdev x)) 0x00000000#32 reduces_S256x1024_S256 (.inl rfl) rfl

/-- The column of row standard deviations. -/
def kstd (x : FVec F S256x1024 .f32) : FVec F S256x1 .f32 :=
  sqrt (divf (shapeCast S256x1 (ksq x) shapeCasts_S256_S256x1) (broadcast S256x1 (Scalar.ofBits .f32 0x447FC000#32)))

/-- The block's layer norm with scale row `g` and shift row `b`. -/
def kln (g b : FVec F S1024 .f32) (x : FVec F S256x1024 .f32) : FVec F S256x1024 .f32 :=
  addf (divf (mulf (broadcastTo S256x1024 (shapeCast S1x1024 g shapeCasts_S1024_S1x1024) broadcasts_S1x1024_S256x1024) (kdev x))
      (broadcastTo S256x1024 (addf (kstd x) (broadcast S256x1 (Scalar.ofBits .f32 0x358637BD#32))) broadcasts_S256x1_S256x1024))
    (broadcastTo S256x1024 (shapeCast S1x1024 b shapeCasts_S1024_S1x1024) broadcasts_S1x1024_S256x1024)

/-! ## Layout readings at explicit coordinates -/

/-- A [256, 1] column broadcast along the rows reads, at (p, q), the column at (p, 0). -/
private theorem bcast_col_apply {α : Type} (v : S256x1.Idx → α) (h : S256x1.Broadcasts S256x1024) (p : Fin 256) (q : Fin 1024) :
    broadcastTo S256x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A length-256 vector cast to a [256, 1] column reads, at (p, u), the vector at p. -/
private theorem cast_col_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A length-1024 row cast to [1, 1024] and broadcast over 256 rows reads, at (p, q), the row at q. -/
private theorem bcast_row_apply {α : Type} (v : S1024.Idx → α) (hc : S1024.ShapeCasts S1x1024) (hb : S1x1024.Broadcasts S256x1024)
    (p : Fin 256) (q : Fin 1024) : broadcastTo S256x1024 (shapeCast S1x1024 v hc) hb (ix2 p q) = v (ix1 q) := by
  rw [broadcastTo_1b_ab_apply, shapeCast_a_1a_apply]

/-- The sum along the second axis, at row p, is the sum over the 1024 entries of row p. -/
private theorem rowsum_apply (x : FVec Ideal S256x1024 .f32) (p : Fin 256) :
    multiReduction (F := Ideal) .add [1] S256 x 0x00000000#32 reduces_S256x1024_S256 (.inl rfl) rfl (ix1 p)
      = ∑ k : Fin 1024, x (ix2 p k) := by
  refine (Ideal.multiReduction_add_single x _ reduces_S256x1024_S256 (.inl rfl) rfl (ix1 p)).trans ?_
  refine Finset.sum_congr rfl fun k _ => congrArg x ?_
  funext a
  apply Fin.ext
  match a with
  | ⟨0, _⟩ => rfl
  | ⟨1, _⟩ => rfl

/-! ## The pieces of the layer norm at explicit coordinates -/

/-- The mean's column at (p, u) is the mean of row p. -/
private theorem kmean_apply (x : FVec Ideal S256x1024 .f32) (p : Fin 256) (u : Fin 1) :
    kmean (F := Ideal) x (ix2 p u) = Spec.mean (fun j => x (ix2 p j)) := by
  unfold kmean Spec.mean Spec.n1024
  rw [divf_apply, cast_col_apply, rowsum_apply, broadcast_apply]
  rfl

/-- The deviations at (p, q): entry q of row p minus the mean of row p. -/
private theorem kdev_apply (x : FVec Ideal S256x1024 .f32) (p : Fin 256) (q : Fin 1024) :
    kdev (F := Ideal) x (ix2 p q) = Spec.dev (fun j => x (ix2 p j)) q := by
  unfold kdev Spec.dev
  rw [subf_apply, bcast_col_apply, kmean_apply]

/-- The squared deviations' row sum at p. -/
private theorem ksq_apply (x : FVec Ideal S256x1024 .f32) (p : Fin 256) :
    ksq (F := Ideal) x (ix1 p) = ∑ j : Fin 1024, Spec.dev (fun j => x (ix2 p j)) j * Spec.dev (fun j => x (ix2 p j)) j := by
  unfold ksq
  rw [rowsum_apply]
  refine Finset.sum_congr rfl fun k _ => ?_
  rw [mulf_apply, kdev_apply]

/-- The standard deviation's column at (p, u) is the standard deviation of row p. -/
private theorem kstd_apply (x : FVec Ideal S256x1024 .f32) (p : Fin 256) (u : Fin 1) :
    kstd (F := Ideal) x (ix2 p u) = Spec.std (fun j => x (ix2 p j)) := by
  unfold kstd Spec.std Spec.n1023
  show Ideal.sqrt (divf (shapeCast S256x1 (ksq x) shapeCasts_S256_S256x1) (broadcast S256x1 (Scalar.ofBits .f32 0x447FC000#32)) (ix2 p u)) = _
  rw [divf_apply, cast_col_apply, ksq_apply, broadcast_apply]
  rfl

/-- The block's layer norm at (p, q) is the row function at row p. -/
theorem kln_apply (g b : FVec Ideal S1024 .f32) (x : FVec Ideal S256x1024 .f32) (p : Fin 256) (q : Fin 1024) :
    kln (F := Ideal) g b x (ix2 p q) = Spec.ln (fun j => g (ix1 j)) (fun j => b (ix1 j)) (fun j => x (ix2 p j)) q := by
  unfold kln Spec.ln Spec.eps
  rw [addf_apply, divf_apply, mulf_apply, bcast_row_apply, bcast_row_apply, kdev_apply, bcast_col_apply, addf_apply, kstd_apply,
    broadcast_apply]
  rfl

end Cert.KernelIdeal.Body

end
-- ==== Proof.KOut.lean ====
/-
  What the kernel body leaves in its two output blocks, at an index.

  From the blocks the body loads (rows of the input and of the hidden state in half precision, rows of the cell state,
  the whole weights, bias, scales and shifts) entry (p, q) of the new-cell block is the row function `Spec.newC` of
  row p, and entry (p, q) of the new-hidden block is `Spec.newH` of row p.
-/
import proofs.«166081_j78262894067860_1_alg».proof.Proof.Gen.KernelIdeal.Frame
import proofs.«166081_j78262894067860_1_alg».proof.Proof.KLin
import proofs.«166081_j78262894067860_1_alg».proof.Proof.KNorm

noncomputable section

namespace Cert.KernelIdeal.Body

open Cert.KernelIdeal Cert.KernelIdeal.Gen Idealize.ShloMosaic Idealize.ShloMosaic.ValueIdx
open scoped BigOperators

/-- Row p's pre-activations from the loaded blocks. -/
abbrev preRow (x0 x1 : Vec Ideal S256x1024 .bf16) (x3 x4 : Vec Ideal S4096x1024 .bf16) (x5 : Vec Ideal S4096 .f32) (p : Fin 256) :
    Fin 4096 → EReal :=
  Spec.lin (fun i => x0 (ix2 p i)) (fun i => x1 (ix2 p i)) (fun a i => x3 (ix2 a i)) (fun a i => x4 (ix2 a i)) (fun a => x5 (ix1 a))

/-! ## The offsets of a whole-block access are all zero -/

private theorem hz2 : (![0, 0] : Fin 2 → Nat) = fun _ => 0 := funext fun a => by fin_cases a <;> rfl
private theorem hz1 : (![0] : Fin 1 → Nat) = fun _ => 0 := funext fun a => by fin_cases a; rfl

/-! ## The four row loads of a 4 × 1024 array

A one-row block at row offset k reads, at (0, j), the array at (k + 1·0, 0 + 1·j) = (k, j); flattened to a vector of
1024 it reads at j the array at (k, j). -/

private theorem row0 (x : Vec Ideal S4x1024 .f32) (j : Fin 1024) :
    shapeCast S1024 (View.ld x r0_3) shapeCasts_S1x1024_S1024 (ix1 j) = x (ix2 (0 : Fin 4) j) := by
  rw [shapeCast_1a_a_apply]
  show x (r0_3.idx (ix2 (0 : Fin 1) j)) = x (ix2 (0 : Fin 4) j)
  congr 1
  funext a
  match a with
  | ⟨0, _⟩ => rfl
  | ⟨1, _⟩ => apply Fin.ext; show 0 + 1 * j.val = j.val; omega

private theorem row1 (x : Vec Ideal S4x1024 .f32) (j : Fin 1024) :
    shapeCast S1024 (View.ld x r0_4) shapeCasts_S1x1024_S1024 (ix1 j) = x (ix2 (1 : Fin 4) j) := by
  rw [shapeCast_1a_a_apply]
  show x (r0_4.idx (ix2 (0 : Fin 1) j)) = x (ix2 (1 : Fin 4) j)
  congr 1
  funext a
  match a with
  | ⟨0, _⟩ => rfl
  | ⟨1, _⟩ => apply Fin.ext; show 0 + 1 * j.val = j.val; omega

private theorem row2 (x : Vec Ideal S4x1024 .f32) (j : Fin 1024) :
    shapeCast S1024 (View.ld x r0_5) shapeCasts_S1x1024_S1024 (ix1 j) = x (ix2 (2 : Fin 4) j) := by
  rw [shapeCast_1a_a_apply]
  show x (r0_5.idx (ix2 (0 : Fin 1) j)) = x (ix2 (2 : Fin 4) j)
  congr 1
  funext a
  match a with
  | ⟨0, _⟩ => rfl
  | ⟨1, _⟩ => apply Fin.ext; show 0 + 1 * j.val = j.val; omega

private theorem row3 (x : Vec Ideal S4x1024 .f32) (j : Fin 1024) :
    shapeCast S1024 (View.ld x r0_6) shapeCasts_S1x1024_S1024 (ix1 j) = x (ix2 (3 : Fin 4) j) := by
  rw [shapeCast_1a_a_apply]
  show x (r0_6.idx (ix2 (0 : Fin 1) j)) = x (ix2 (3 : Fin 4) j)
  congr 1
  funext a
  match a with
  | ⟨0, _⟩ => rfl
  | ⟨1, _⟩ => apply Fin.ext; show 0 + 1 * j.val = j.val; omega

/-! ## Each normalised group of the body is the body's layer norm

The scale and shift rows enter as one-row blocks flattened to vectors; gate 0's norm is spelt over five values and
gate 2's over five more, and composed they are the same expression as the other two. -/

section AnyFormat
variable {F : FTy → Type} [FloatOps F]

private theorem pay12_kln (x0 x1 : Vec F S256x1024 .bf16) (x3 x4 : Vec F S4096x1024 .bf16) (x5 : Vec F S4096 .f32)
    (v19 v21 : Vec F S1x1024 .f32) :
    k0_pay12 (k0_pay7 v21) (k0_pay9 x0 x1 x3 x4 x5) (k0_pay10 x0 x1 x3 x4 x5 v19) (k0_pay11 (F := F))
      = kln (shapeCast S1024 v19 shapeCasts_S1x1024_S1024) (shapeCast S1024 v21 shapeCasts_S1x1024_S1024)
          (extractStridedSlice S256x1024 ![0, 0] (k0_pay3 x0 x1 x3 x4 x5) slices_S256x4096_o0_0_S256x1024) := rfl

private theorem pay13_kln (v16 : FVec F S256x1024 .f32) (v45 v47 : Vec F S1x1024 .f32) :
    k0_pay13 v16 v45 v47
      = kln (shapeCast S1024 v45 shapeCasts_S1x1024_S1024) (shapeCast S1024 v47 shapeCasts_S1x1024_S1024) v16 := rfl

private theorem pay18_kln (v71 v73 : Vec F S1x1024 .f32) (v17 : FVec F S256x1024 .f32) :
    k0_pay18 (k0_pay14 v71) (k0_pay15 v73) (k0_pay16 v17) (k0_pay17 v17)
      = kln (shapeCast S1024 v71 shapeCasts_S1x1024_S1024) (shapeCast S1024 v73 shapeCasts_S1x1024_S1024) v17 := rfl

private theorem pay19_kln (v18 : FVec F S256x1024 .f32) (v97 v99 : Vec F S1x1024 .f32) :
    k0_pay19 v18 v97 v99
      = kln (shapeCast S1024 v97 shapeCasts_S1x1024_S1024) (shapeCast S1024 v99 shapeCasts_S1x1024_S1024) v18 := rfl

/-- The new cell block is the layer norm, with the cell's scale and shift, of  v127 + v128 · tanh v96. -/
private theorem pay1_kln (v96 v127 v128 : FVec F S256x1024 .f32) (v132 v133 : Vec F S1024 .f32) :
    k0_pay1 v96 v127 v128 v132 v133 = kln v132 v133 (addf v127 (mulf v128 (tanh v96))) := rfl

end AnyFormat

/-! ## The four gates: columns g·1024 … g·1024 + 1023 of the pre-activations -/

private theorem gate0 (x0 x1 : Vec Ideal S256x1024 .bf16) (x3 x4 : Vec Ideal S4096x1024 .bf16) (x5 : Vec Ideal S4096 .f32)
    (p : Fin 256) (j : Fin 1024) :
    extractStridedSlice S256x1024 ![0, 0] (k0_pay3 (F := Ideal) x0 x1 x3 x4 x5) slices_S256x4096_o0_0_S256x1024 (ix2 p j)
      = Spec.gate 0 (preRow x0 x1 x3 x4 x5 p) j := by
  rw [slice2_axis1_eq, pay3_apply]
  exact congrArg (preRow x0 x1 x3 x4 x5 p) (Fin.ext (by show 0 + j.val = 0 * 1024 + j.val; omega))

private theorem gate1 (x0 x1 : Vec Ideal S256x1024 .bf16) (x3 x4 : Vec Ideal S4096x1024 .bf16) (x5 : Vec Ideal S4096 .f32)
    (p : Fin 256) (j : Fin 1024) :
    extractStridedSlice S256x1024 ![0, 1024] (k0_pay3 (F := Ideal) x0 x1 x3 x4 x5) slices_S256x4096_o0_1024_S256x1024 (ix2 p j)
      = Spec.gate 1 (preRow x0 x1 x3 x4 x5 p) j := by
  rw [slice2_axis1_eq, pay3_apply]
  exact congrArg (preRow x0 x1 x3 x4 x5 p) (Fin.ext (by show 1024 + j.val = 1 * 1024 + j.val; omega))

private theorem gate2 (x0 x1 : Vec Ideal S256x1024 .bf16) (x3 x4 : Vec Ideal S4096x1024 .bf16) (x5 : Vec Ideal S4096 .f32)
    (p : Fin 256) (j : Fin 1024) :
    extractStridedSlice S256x1024 ![0, 2048] (k0_pay3 (F := Ideal) x0 x1 x3 x4 x5) slices_S256x4096_o0_2048_S256x1024 (ix2 p j)
      = Spec.gate 2 (preRow x0 x1 x3 x4 x5 p) j := by
  rw [slice2_axis1_eq, pay3_apply]
  exact congrArg (preRow x0 x1 x3 x4 x5 p) (Fin.ext (by show 2048 + j.val = 2 * 1024 + j.val; omega))

private theorem gate3 (x0 x1 : Vec Ideal S256x1024 .bf16) (x3 x4 : Vec Ideal S4096x1024 .bf16) (x5 : Vec Ideal S4096 .f32)
    (p : Fin 256) (j : Fin 1024) :
    extractStridedSlice S256x1024 ![0, 3072] (k0_pay3 (F := Ideal) x0 x1 x3 x4 x5) slices_S256x4096_o0_3072_S256x1024 (ix2 p j)
      = Spec.gate 3 (preRow x0 x1 x3 x4 x5 p) j := by
  rw [slice2_axis1_eq, pay3_apply]
  exact congrArg (preRow x0 x1 x3 x4 x5 p) (Fin.ext (by show 3072 + j.val = 3 * 1024 + j.val; omega))

/-! ## The four normalised gates at (p, q): the row norm of gate g of row p with row g of the scales and shifts -/

private theorem ngate0_apply (x0 x1 : Vec Ideal S256x1024 .bf16) (x3 x4 : Vec Ideal S4096x1024 .bf16) (x5 : Vec Ideal S4096 .f32)
    (x6 x7 : Vec Ideal S4x1024 .f32) (p : Fin 256) (q : Fin 1024) :
    k0_pay12 (k0_pay7 (View.ld x7 r0_3)) (k0_pay9 x0 x1 x3 x4 x5) (k0_pay10 x0 x1 x3 x4 x5 (View.ld x6 r0_3))
        (k0_pay11 (F := Ideal)) (ix2 p q)
      = Spec.ngate 0 (fun g j => x6 (ix2 g j)) (fun g j => x7 (ix2 g j)) (preRow x0 x1 x3 x4 x5 p) q := by
  rw [pay12_kln, kln_apply]
  have hg : (fun j => shapeCast S1024 (View.ld x6 r0_3) shapeCasts_S1x1024_S1024 (ix1 j)) = fun j => x6 (ix2 (0 : Fin 4) j) :=
    funext (row0 x6)
  have hb : (fun j => shapeCast S1024 (View.ld x7 r0_3) shapeCasts_S1x1024_S1024 (ix1 j)) = fun j => x7 (ix2 (0 : Fin 4) j) :=
    funext (row0 x7)
  have hv : (fun j => extractStridedSlice S256x1024 ![0, 0] (k0_pay3 (F := Ideal) x0 x1 x3 x4 x5) slices_S256x4096_o0_0_S256x1024 (ix2 p j))
      = Spec.gate 0 (preRow x0 x1 x3 x4 x5 p) := funext (gate0 x0 x1 x3 x4 x5 p)
  rw [hg, hb, hv]
  rfl

private theorem ngate1_apply (x0 x1 : Vec Ideal S256x1024 .bf16) (x3 x4 : Vec Ideal S4096x1024 .bf16) (x5 : Vec Ideal S4096 .f32)
    (x6 x7 : Vec Ideal S4x1024 .f32) (p : Fin 256) (q : Fin 1024) :
    k0_pay13 (k0_pay4 x0 x1 x3 x4 x5) (View.ld x6 r0_4) (View.ld x7 r0_4) (ix2 p q)
      = Spec.ngate 1 (fun g j => x6 (ix2 g j)) (fun g j => x7 (ix2 g j)) (preRow x0 x1 x3 x4 x5 p) q := by
  rw [pay13_kln, kln_apply]
  have hg : (fun j => shapeCast S1024 (View.ld x6 r0_4) shapeCasts_S1x1024_S1024 (ix1 j)) = fun j => x6 (ix2 (1 : Fin 4) j) :=
    funext (row1 x6)
  have hb : (fun j => shapeCast S1024 (View.ld x7 r0_4) shapeCasts_S1x1024_S1024 (ix1 j)) = fun j => x7 (ix2 (1 : Fin 4) j) :=
    funext (row1 x7)
  have hv : (fun j => k0_pay4 (F := Ideal) x0 x1 x3 x4 x5 (ix2 p j)) = Spec.gate 1 (preRow x0 x1 x3 x4 x5 p) :=
    funext (gate1 x0 x1 x3 x4 x5 p)
  rw [hg, hb, hv]
  rfl

private theorem ngate2_apply (x0 x1 : Vec Ideal S256x1024 .bf16) (x3 x4 : Vec Ideal S4096x1024 .bf16) (x5 : Vec Ideal S4096 .f32)
    (x6 x7 : Vec Ideal S4x1024 .f32) (p : Fin 256) (q : Fin 1024) :
    k0_pay18 (k0_pay14 (View.ld x6 r0_5)) (k0_pay15 (View.ld x7 r0_5)) (k0_pay16 (k0_pay5 x0 x1 x3 x4 x5))
        (k0_pay17 (k0_pay5 x0 x1 x3 x4 x5)) (ix2 p q)
      = Spec.ngate 2 (fun g j => x6 (ix2 g j)) (fun g j => x7 (ix2 g j)) (preRow x0 x1 x3 x4 x5 p) q := by
  rw [pay18_kln, kln_apply]
  have hg : (fun j => shapeCast S1024 (View.ld x6 r0_5) shapeCasts_S1x1024_S1024 (ix1 j)) = fun j => x6 (ix2 (2 : Fin 4) j) :=
    funext (row2 x6)
  have hb : (fun j => shapeCast S1024 (View.ld x7 r0_5) shapeCasts_S1x1024_S1024 (ix1 j)) = fun j => x7 (ix2 (2 : Fin 4) j) :=
    funext (row2 x7)
  have hv : (fun j => k0_pay5 (F := Ideal) x0 x1 x3 x4 x5 (ix2 p j)) = Spec.gate 2 (preRow x0 x1 x3 x4 x5 p) :=
    funext (gate2 x0 x1 x3 x4 x5 p)
  rw [hg, hb, hv]
  rfl

private theorem ngate3_apply (x0 x1 : Vec Ideal S256x1024 .bf16) (x3 x4 : Vec Ideal S4096x1024 .bf16) (x5 : Vec Ideal S4096 .f32)
    (x6 x7 : Vec Ideal S4x1024 .f32) (p : Fin 256) (q : Fin 1024) :
    k0_pay19 (k0_pay6 x0 x1 x3 x4 x5) (View.ld x6 r0_6) (View.ld x7 r0_6) (ix2 p q)
      = Spec.ngate 3 (fun g j => x6 (ix2 g j)) (fun g j => x7 (ix2 g j)) (preRow x0 x1 x3 x4 x5 p) q := by
  rw [pay19_kln, kln_apply]
  have hg : (fun j => shapeCast S1024 (View.ld x6 r0_6) shapeCasts_S1x1024_S1024 (ix1 j)) = fun j => x6 (ix2 (3 : Fin 4) j) :=
    funext (row3 x6)
  have hb : (fun j => shapeCast S1024 (View.ld x7 r0_6) shapeCasts_S1x1024_S1024 (ix1 j)) = fun j => x7 (ix2 (3 : Fin 4) j) :=
    funext (row3 x7)
  have hv : (fun j => k0_pay6 (F := Ideal) x0 x1 x3 x4 x5 (ix2 p j)) = Spec.gate 3 (preRow x0 x1 x3 x4 x5 p) :=
    funext (gate3 x0 x1 x3 x4 x5 p)
  rw [hg, hb, hv]
  rfl

/-! ## The cell row before its own norm:  cr · σ(f + 1) + σ(i) · tanh(g)  at (p, j) -/

private theorem cellRaw_apply (x0 x1 : Vec Ideal S256x1024 .bf16) (x2 : Vec Ideal S256x1024 .f32) (x3 x4 : Vec Ideal S4096x1024 .bf16)
    (x5 : Vec Ideal S4096 .f32) (x6 x7 : Vec Ideal S4x1024 .f32) (p : Fin 256) (j : Fin 1024) :
    addf (k0_pay20 (k0_pay13 (k0_pay4 x0 x1 x3 x4 x5) (View.ld x6 r0_4) (View.ld x7 r0_4)) x2)
        (mulf (k0_pay21 (k0_pay12 (k0_pay7 (View.ld x7 r0_3)) (k0_pay9 x0 x1 x3 x4 x5)
            (k0_pay10 x0 x1 x3 x4 x5 (View.ld x6 r0_3)) (k0_pay11 (F := Ideal))))
          (tanh (k0_pay18 (k0_pay14 (View.ld x6 r0_5)) (k0_pay15 (View.ld x7 r0_5)) (k0_pay16 (k0_pay5 x0 x1 x3 x4 x5))
            (k0_pay17 (k0_pay5 x0 x1 x3 x4 x5))))) (ix2 p j)
      = Spec.cellRaw (fun g j => x6 (ix2 g j)) (fun g j => x7 (ix2 g j)) (preRow x0 x1 x3 x4 x5 p) (fun j => x2 (ix2 p j)) j := by
  show x2 (ix2 p j) * Ideal.logistic (k0_pay13 (k0_pay4 x0 x1 x3 x4 x5) (View.ld x6 r0_4) (View.ld x7 r0_4) (ix2 p j) + Spec.one)
      + Ideal.logistic (k0_pay12 (k0_pay7 (View.ld x7 r0_3)) (k0_pay9 x0 x1 x3 x4 x5)
            (k0_pay10 x0 x1 x3 x4 x5 (View.ld x6 r0_3)) (k0_pay11 (F := Ideal)) (ix2 p j))
        * Ideal.tanh (k0_pay18 (k0_pay14 (View.ld x6 r0_5)) (k0_pay15 (View.ld x7 r0_5)) (k0_pay16 (k0_pay5 x0 x1 x3 x4 x5))
            (k0_pay17 (k0_pay5 x0 x1 x3 x4 x5)) (ix2 p j)) = _
  rw [ngate1_apply, ngate0_apply, ngate2_apply]
  rfl

/-- The new-cell payload at (p, q), over the loaded blocks. -/
private theorem newC_apply (x0 x1 : Vec Ideal S256x1024 .bf16) (x2 : Vec Ideal S256x1024 .f32) (x3 x4 : Vec Ideal S4096x1024 .bf16)
    (x5 : Vec Ideal S4096 .f32) (x6 x7 : Vec Ideal S4x1024 .f32) (x8 x9 : Vec Ideal S1024 .f32) (p : Fin 256) (q : Fin 1024) :
    k0_pay1 (k0_pay18 (k0_pay14 (View.ld x6 r0_5)) (k0_pay15 (View.ld x7 r0_5)) (k0_pay16 (k0_pay5 x0 x1 x3 x4 x5))
          (k0_pay17 (k0_pay5 x0 x1 x3 x4 x5)))
        (k0_pay20 (k0_pay13 (k0_pay4 x0 x1 x3 x4 x5) (View.ld x6 r0_4) (View.ld x7 r0_4)) x2)
        (k0_pay21 (k0_pay12 (k0_pay7 (View.ld x7 r0_3)) (k0_pay9 x0 x1 x3 x4 x5)
            (k0_pay10 x0 x1 x3 x4 x5 (View.ld x6 r0_3)) (k0_pay11 (F := Ideal)))) x8 x9 (ix2 p q)
      = Spec.newC (fun g j => x6 (ix2 g j)) (fun g j => x7 (ix2 g j)) (fun j => x8 (ix1 j)) (fun j => x9 (ix1 j))
          (preRow x0 x1 x3 x4 x5 p) (fun j => x2 (ix2 p j)) q := by
  rw [pay1_kln, kln_apply]
  have hc := funext (cellRaw_apply x0 x1 x2 x3 x4 x5 x6 x7 p)
  rw [hc]
  rfl

/-- The new-cell block at (p, q). -/
theorem out0_11_apply (x0 x1 : Vec Ideal S256x1024 .bf16) (x2 : Vec Ideal S256x1024 .f32) (x3 x4 : Vec Ideal S4096x1024 .bf16)
    (x5 : Vec Ideal S4096 .f32) (x6 x7 : Vec Ideal S4x1024 .f32) (x8 x9 : Vec Ideal S1024 .f32) (p : Fin 256) (q : Fin 1024) :
    out0_11 (F := Ideal) x0 x1 x2 x3 x4 x5 x6 x7 x8 x9 (ix2 p q)
      = Spec.newC (fun g j => x6 (ix2 g j)) (fun g j => x7 (ix2 g j)) (fun j => x8 (ix1 j)) (fun j => x9 (ix1 j))
          (preRow x0 x1 x3 x4 x5 p) (fun j => x2 (ix2 p j)) q := by
  unfold out0_11
  rw [View.canon_unit_zero hz2]
  simp only [View.ld_unit_zero (S := S256x1024) hz2, View.ld_unit_zero (S := S4096x1024) hz2,
    View.ld_unit_zero (S := S4096) hz1, View.ld_unit_zero (S := S1024) hz1]
  exact newC_apply x0 x1 x2 x3 x4 x5 x6 x7 x8 x9 p q

/-- The new-hidden block at (p, q). -/
theorem out0_10_apply (x0 x1 : Vec Ideal S256x1024 .bf16) (x2 : Vec Ideal S256x1024 .f32) (x3 x4 : Vec Ideal S4096x1024 .bf16)
    (x5 : Vec Ideal S4096 .f32) (x6 x7 : Vec Ideal S4x1024 .f32) (x8 x9 : Vec Ideal S1024 .f32) (p : Fin 256) (q : Fin 1024) :
    out0_10 (F := Ideal) x0 x1 x2 x3 x4 x5 x6 x7 x8 x9 (ix2 p q)
      = Spec.newH (fun g j => x6 (ix2 g j)) (fun g j => x7 (ix2 g j)) (fun j => x8 (ix1 j)) (fun j => x9 (ix1 j))
          (preRow x0 x1 x3 x4 x5 p) (fun j => x2 (ix2 p j)) q := by
  unfold out0_10
  rw [View.canon_unit_zero hz2]
  simp only [View.ld_unit_zero (S := S256x1024) hz2, View.ld_unit_zero (S := S4096x1024) hz2,
    View.ld_unit_zero (S := S4096) hz1, View.ld_unit_zero (S := S1024) hz1]
  show Ideal.tanh (k0_pay1 (k0_pay18 (k0_pay14 (View.ld x6 r0_5)) (k0_pay15 (View.ld x7 r0_5)) (k0_pay16 (k0_pay5 x0 x1 x3 x4 x5))
          (k0_pay17 (k0_pay5 x0 x1 x3 x4 x5)))
        (k0_pay20 (k0_pay13 (k0_pay4 x0 x1 x3 x4 x5) (View.ld x6 r0_4) (View.ld x7 r0_4)) x2)
        (k0_pay21 (k0_pay12 (k0_pay7 (View.ld x7 r0_3)) (k0_pay9 x0 x1 x3 x4 x5)
            (k0_pay10 x0 x1 x3 x4 x5 (View.ld x6 r0_3)) (k0_pay11 (F := Ideal)))) x8 x9 (ix2 p q))
      * Ideal.logistic (k0_pay19 (k0_pay6 x0 x1 x3 x4 x5) (View.ld x6 r0_6) (View.ld x7 r0_6) (ix2 p q)) = _
  rw [newC_apply, ngate3_apply]
  rfl

end Cert.KernelIdeal.Body

end
-- ==== Proof.Whole.lean ====
/-
  The two results as whole-array functions of the ten argument arrays.

  Row `b` of either result depends on row `b` of the input, of the hidden state and of the cell state, and on the
  whole of the weights, the bias and the scales and shifts: it is the row function of `Spec` at those rows. `newCAt` /
  `newHAt` state that at a row `b` and a column `j`; `GC` / `GH` are the arrays they fill, index by index.
-/
import proofs.«166081_j78262894067860_1_alg».proof.Proof.Spec
import Idealize.ShloMosaic.Lib.ValueIdx

noncomputable section

namespace Cert.Whole

open Idealize.ShloMosaic Idealize.ShloMosaic.ValueIdx

abbrev A8192x1024 : Type := (⟨2, ![8192, 1024]⟩ : Shape).Idx → EReal
abbrev A4096x1024 : Type := (⟨2, ![4096, 1024]⟩ : Shape).Idx → EReal
abbrev A4096 : Type := (⟨1, ![4096]⟩ : Shape).Idx → EReal
abbrev A4x1024 : Type := (⟨2, ![4, 1024]⟩ : Shape).Idx → EReal
abbrev A1024 : Type := (⟨1, ![1024]⟩ : Shape).Idx → EReal

/-- Row `b` of a matrix with 1024 columns. -/
abbrev rowOf {n : Nat} (X : (⟨2, ![n, 1024]⟩ : Shape).Idx → EReal) (b : Fin n) : Fin 1024 → EReal := fun i => X (ix2 b i)

/-- A matrix by rows and columns. -/
abbrev mat {n k : Nat} (X : (⟨2, ![n, k]⟩ : Shape).Idx → EReal) : Fin n → Fin k → EReal := fun a i => X (ix2 a i)

/-- A vector by entries. -/
abbrev vec {n : Nat} (X : (⟨1, ![n]⟩ : Shape).Idx → EReal) : Fin n → EReal := fun a => X (ix1 a)

/-- Row `b`'s pre-activations. -/
def preAt (X H : A8192x1024) (Wih : A4096x1024) (B : A4096) (Whh : A4096x1024) (b : Fin 8192) : Fin 4096 → EReal :=
  Spec.lin (rowOf X b) (rowOf H b) (mat Wih) (mat Whh) (vec B)

/-- The new cell state at row `b`, column `j`. The arguments are in the programs' order: input, hidden state, cell
    state, input weights, bias, hidden weights, gate scales, gate shifts, cell scale, cell shift. -/
def newCAt (X H C : A8192x1024) (Wih : A4096x1024) (B : A4096) (Whh : A4096x1024) (Gm Bt : A4x1024) (Gc Bc : A1024)
    (b : Fin 8192) (j : Fin 1024) : EReal :=
  Spec.newC (mat Gm) (mat Bt) (vec Gc) (vec Bc) (preAt X H Wih B Whh b) (rowOf C b) j

/-- The new hidden state at row `b`, column `j`. -/
def newHAt (X H C : A8192x1024) (Wih : A4096x1024) (B : A4096) (Whh : A4096x1024) (Gm Bt : A4x1024) (Gc Bc : A1024)
    (b : Fin 8192) (j : Fin 1024) : EReal :=
  Spec.newH (mat Gm) (mat Bt) (vec Gc) (vec Bc) (preAt X H Wih B Whh b) (rowOf C b) j

/-- The new cell state as an array. -/
def GC (X H C : A8192x1024) (Wih : A4096x1024) (B : A4096) (Whh : A4096x1024) (Gm Bt : A4x1024) (Gc Bc : A1024) : A8192x1024 :=
  fun i => newCAt X H C Wih B Whh Gm Bt Gc Bc (i 0) (i 1)

/-- The new hidden state as an array. -/
def GH (X H C : A8192x1024) (Wih : A4096x1024) (B : A4096) (Whh : A4096x1024) (Gm Bt : A4x1024) (Gc Bc : A1024) : A8192x1024 :=
  fun i => newHAt X H C Wih B Whh Gm Bt Gc Bc (i 0) (i 1)

theorem GC_ix2 (X H C : A8192x1024) (Wih : A4096x1024) (B : A4096) (Whh : A4096x1024) (Gm Bt : A4x1024) (Gc Bc : A1024)
    (b : Fin 8192) (j : Fin 1024) : GC X H C Wih B Whh Gm Bt Gc Bc (ix2 b j) = newCAt X H C Wih B Whh Gm Bt Gc Bc b j := rfl

theorem GH_ix2 (X H C : A8192x1024) (Wih : A4096x1024) (B : A4096) (Whh : A4096x1024) (Gm Bt : A4x1024) (Gc Bc : A1024)
    (b : Fin 8192) (j : Fin 1024) : GH X H C Wih B Whh Gm Bt Gc Bc (ix2 b j) = newHAt X H C Wih B Whh Gm Bt Gc Bc b j := rfl

end Cert.Whole

end
-- ==== Proof.KBlocks.lean ====
/-
  From the kernel's blocks to its two result arrays.

  Grid point t handles rows 256·t … 256·t + 255: it reads those rows of the input, the hidden state and the cell state
  and the whole of every other operand, and writes those rows of both results. The 32 points' row ranges tile the 8192
  rows, so each result array after the run is the whole-array function of the arguments (`Whole.GH`, `Whole.GC`). The
  half-precision copies of the input, the hidden state and the two weight matrices that the program makes before the
  region are the arguments themselves over the extended reals.
-/
import proofs.«166081_j78262894067860_1_alg».proof.Proof.KValueBlocks
import proofs.«166081_j78262894067860_1_alg».proof.Proof.KOut
import proofs.«166081_j78262894067860_1_alg».proof.Proof.Whole

noncomputable section

namespace Cert.KernelIdeal.KFinal

open Cert.KernelIdeal Cert.KernelIdeal.Gen Idealize.ShloMosaic Idealize.ShloMosaic.TcCoe Idealize.SL.Sem Idealize.ShloMosaic.ValueIdx
open Idealize.ShloMosaic.Pipeline (Dat)

/-- Entry (p, q) of the new-cell block, computed from blocks that hold row b of the input, of the hidden state and of the
    cell state and the whole of every other operand, is entry (b, q) of the new cell state. -/
theorem newC_entry (X H C : Whole.A8192x1024) (Wih : Whole.A4096x1024) (B : Whole.A4096) (Whh : Whole.A4096x1024)
    (Gm Bt : Whole.A4x1024) (Gc Bc : Whole.A1024)
    (x0 x1 : Vec Ideal S256x1024 .bf16) (x2 : Vec Ideal S256x1024 .f32) (x3 x4 : Vec Ideal S4096x1024 .bf16)
    (x5 : Vec Ideal S4096 .f32) (x6 x7 : Vec Ideal S4x1024 .f32) (x8 x9 : Vec Ideal S1024 .f32)
    (b : Fin 8192) (p : Fin 256) (q : Fin 1024)
    (e0 : ∀ i : Fin 1024, x0 (ix2 p i) = X (ix2 b i)) (e1 : ∀ i : Fin 1024, x1 (ix2 p i) = H (ix2 b i))
    (e2 : ∀ i : Fin 1024, x2 (ix2 p i) = C (ix2 b i))
    (e3 : ∀ (a : Fin 4096) (i : Fin 1024), x3 (ix2 a i) = Wih (ix2 a i))
    (e4 : ∀ (a : Fin 4096) (i : Fin 1024), x4 (ix2 a i) = Whh (ix2 a i))
    (e5 : ∀ a : Fin 4096, x5 (ix1 a) = B (ix1 a))
    (e6 : ∀ (g : Fin 4) (j : Fin 1024), x6 (ix2 g j) = Gm (ix2 g j))
    (e7 : ∀ (g : Fin 4) (j : Fin 1024), x7 (ix2 g j) = Bt (ix2 g j))
    (e8 : ∀ j : Fin 1024, x8 (ix1 j) = Gc (ix1 j)) (e9 : ∀ j : Fin 1024, x9 (ix1 j) = Bc (ix1 j)) :
    out0_11 (F := Ideal) x0 x1 x2 x3 x4 x5 x6 x7 x8 x9 (ix2 p q) = Whole.GC X H C Wih B Whh Gm Bt Gc Bc (ix2 b q) := by
  have h0 : (fun i => x0 (ix2 p i)) = Whole.rowOf X b := funext e0
  have h1 : (fun i => x1 (ix2 p i)) = Whole.rowOf H b := funext e1
  have h2 : (fun j => x2 (ix2 p j)) = Whole.rowOf C b := funext e2
  have h3 : (fun a i => x3 (ix2 a i)) = Whole.mat Wih := funext fun a => funext (e3 a)
  have h4 : (fun a i => x4 (ix2 a i)) = Whole.mat Whh := funext fun a => funext (e4 a)
  have h5 : (fun a => x5 (ix1 a)) = Whole.vec B := funext e5
  have h6 : (fun g j => x6 (ix2 g j)) = Whole.mat Gm := funext fun g => funext (e6 g)
  have h7 : (fun g j => x7 (ix2 g j)) = Whole.mat Bt := funext fun g => funext (e7 g)
  have h8 : (fun j => x8 (ix1 j)) = Whole.vec Gc := funext e8
  have h9 : (fun j => x9 (ix1 j)) = Whole.vec Bc := funext e9
  rw [Body.out0_11_apply, Whole.GC_ix2]
  show Spec.newC (fun g j => x6 (ix2 g j)) (fun g j => x7 (ix2 g j)) (fun j => x8 (ix1 j)) (fun j => x9 (ix1 j))
      (Spec.lin (fun i => x0 (ix2 p i)) (fun i => x1 (ix2 p i)) (fun a i => x3 (ix2 a i)) (fun a i => x4 (ix2 a i)) (fun a => x5 (ix1 a)))
      (fun j => x2 (ix2 p j)) q
    = Spec.newC (Whole.mat Gm) (Whole.mat Bt) (Whole.vec Gc) (Whole.vec Bc)
      (Spec.lin (Whole.rowOf X b) (Whole.rowOf H b) (Whole.mat Wih) (Whole.mat Whh) (Whole.vec B)) (Whole.rowOf C b) q
  rw [h0, h1, h2, h3, h4, h5, h6, h7, h8, h9]

/-- The same for the new-hidden block. -/
theorem newH_entry (X H C : Whole.A8192x1024) (Wih : Whole.A4096x1024) (B : Whole.A4096) (Whh : Whole.A4096x1024)
    (Gm Bt : Whole.A4x1024) (Gc Bc : Whole.A1024)
    (x0 x1 : Vec Ideal S256x1024 .bf16) (x2 : Vec Ideal S256x1024 .f32) (x3 x4 : Vec Ideal S4096x1024 .bf16)
    (x5 : Vec Ideal S4096 .f32) (x6 x7 : Vec Ideal S4x1024 .f32) (x8 x9 : Vec Ideal S1024 .f32)
    (b : Fin 8192) (p : Fin 256) (q : Fin 1024)
    (e0 : ∀ i : Fin 1024, x0 (ix2 p i) = X (ix2 b i)) (e1 : ∀ i : Fin 1024, x1 (ix2 p i) = H (ix2 b i))
    (e2 : ∀ i : Fin 1024, x2 (ix2 p i) = C (ix2 b i))
    (e3 : ∀ (a : Fin 4096) (i : Fin 1024), x3 (ix2 a i) = Wih (ix2 a i))
    (e4 : ∀ (a : Fin 4096) (i : Fin 1024), x4 (ix2 a i) = Whh (ix2 a i))
    (e5 : ∀ a : Fin 4096, x5 (ix1 a) = B (ix1 a))
    (e6 : ∀ (g : Fin 4) (j : Fin 1024), x6 (ix2 g j) = Gm (ix2 g j))
    (e7 : ∀ (g : Fin 4) (j : Fin 1024), x7 (ix2 g j) = Bt (ix2 g j))
    (e8 : ∀ j : Fin 1024, x8 (ix1 j) = Gc (ix1 j)) (e9 : ∀ j : Fin 1024, x9 (ix1 j) = Bc (ix1 j)) :
    out0_10 (F := Ideal) x0 x1 x2 x3 x4 x5 x6 x7 x8 x9 (ix2 p q) = Whole.GH X H C Wih B Whh Gm Bt Gc Bc (ix2 b q) := by
  have h0 : (fun i => x0 (ix2 p i)) = Whole.rowOf X b := funext e0
  have h1 : (fun i => x1 (ix2 p i)) = Whole.rowOf H b := funext e1
  have h2 : (fun j => x2 (ix2 p j)) = Whole.rowOf C b := funext e2
  have h3 : (fun a i => x3 (ix2 a i)) = Whole.mat Wih := funext fun a => funext (e3 a)
  have h4 : (fun a i => x4 (ix2 a i)) = Whole.mat Whh := funext fun a => funext (e4 a)
  have h5 : (fun a => x5 (ix1 a)) = Whole.vec B := funext e5
  have h6 : (fun g j => x6 (ix2 g j)) = Whole.mat Gm := funext fun g => funext (e6 g)
  have h7 : (fun g j => x7 (ix2 g j)) = Whole.mat Bt := funext fun g => funext (e7 g)
  have h8 : (fun j => x8 (ix1 j)) = Whole.vec Gc := funext e8
  have h9 : (fun j => x9 (ix1 j)) = Whole.vec Bc := funext e9
  rw [Body.out0_10_apply, Whole.GH_ix2]
  show Spec.newH (fun g j => x6 (ix2 g j)) (fun g j => x7 (ix2 g j)) (fun j => x8 (ix1 j)) (fun j => x9 (ix1 j))
      (Spec.lin (fun i => x0 (ix2 p i)) (fun i => x1 (ix2 p i)) (fun a i => x3 (ix2 a i)) (fun a i => x4 (ix2 a i)) (fun a => x5 (ix1 a)))
      (fun j => x2 (ix2 p j)) q
    = Spec.newH (Whole.mat Gm) (Whole.mat Bt) (Whole.vec Gc) (Whole.vec Bc)
      (Spec.lin (Whole.rowOf X b) (Whole.rowOf H b) (Whole.mat Wih) (Whole.mat Whh) (Whole.vec B)) (Whole.rowOf C b) q
  rw [h0, h1, h2, h3, h4, h5, h6, h7, h8, h9]

/-- The block index of each window at grid point t: the windows over rows sit at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Every other window sits at block 0 at every point: its block is the whole array. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 1) = 0 :=
  (by decide +kernel : ∀ t : Fin grid0.N, _)

variable (m : (ℓ : Loc nD τ sig) → Buf (Elt Ideal) ℓ)

/-- When the region is entered, the half-precision copy of the input holds the input's launch contents rounded to half
    precision; over the extended reals that rounding is the identity (likewise for the three other copies below). -/
theorem V_v0 (c : Dev nD) : V m c main_v0 = (truncf (F := Ideal) (s := S8192x1024) (φ := .f32) .bf16 (m ((c.tc : Thread nD τ).loc main_arg0)) bitsLt_bf16_f32 : FVec Ideal S8192x1024 .bf16) := by
  dsimp only [Gen.V, Gen.hostOps0]; after_results

/-- The half-precision copy of the hidden state. -/
theorem V_v1 (c : Dev nD) : V m c main_v1 = (truncf (F := Ideal) (s := S8192x1024) (φ := .f32) .bf16 (m ((c.tc : Thread nD τ).loc main_arg1)) bitsLt_bf16_f32 : FVec Ideal S8192x1024 .bf16) := by
  dsimp only [Gen.V, Gen.hostOps0]; after_results

/-- The half-precision copy of the input weights. -/
theorem V_v2 (c : Dev nD) : V m c main_v2 = (truncf (F := Ideal) (s := S4096x1024) (φ := .f32) .bf16 (m ((c.tc : Thread nD τ).loc main_arg3)) bitsLt_bf16_f32 : FVec Ideal S4096x1024 .bf16) := by
  dsimp only [Gen.V, Gen.hostOps0]; after_results

/-- The half-precision copy of the hidden weights. -/
theorem V_v3 (c : Dev nD) : V m c main_v3 = (truncf (F := Ideal) (s := S4096x1024) (φ := .f32) .bf16 (m ((c.tc : Thread nD τ).loc main_arg5)) bitsLt_bf16_f32 : FVec Ideal S4096x1024 .bf16) := by
  dsimp only [Gen.V, Gen.hostOps0]; after_results

/-- Row p of the input's block at point t is row 256·t + p of the input. -/
theorem blk0_apply (c : Dev nD) (t : Fin cfg0.N) (p : Fin 256) (i : Fin 1024) (b : Fin 8192) (hb : b.val = 256 * t.val + p.val) :
    (iblk m c 0 t : Vec Ideal S256x1024 .bf16) (ix2 p i) = (m ((c.tc : Thread nD τ).loc main_arg0) : S8192x1024.Idx → EReal) (ix2 b i) := by
  obtain ⟨r00, r01, r10, r11, r20, r21, -⟩ := idx_rows t
  unfold iblk
  rw [View.read_apply]
  show V m c main_v0 _ = m (c.tc.loc main_arg0) _
  rw [V_v0 m c]
  show m (c.tc.loc main_arg0) _ = m (c.tc.loc main_arg0) _
  congr 1
  funext a
  apply Fin.ext
  match a with
  | ⟨0, _⟩ => show win0_0.index t (0 : Fin 2) * 256 + 1 * p.val = b.val; rw [r00, hb]; omega
  | ⟨1, _⟩ => show win0_0.index t (1 : Fin 2) * 1024 + 1 * i.val = i.val; rw [r01]; omega

/-- Row p of the hidden state's block at point t is row 256·t + p of the hidden state. -/
theorem blk1_apply (c : Dev nD) (t : Fin cfg0.N) (p : Fin 256) (i : Fin 1024) (b : Fin 8192) (hb : b.val = 256 * t.val + p.val) :
    (iblk m c 1 t : Vec Ideal S256x1024 .bf16) (ix2 p i) = (m ((c.tc : Thread nD τ).loc main_arg1) : S8192x1024.Idx → EReal) (ix2 b i) := by
  obtain ⟨r00, r01, r10, r11, r20, r21, -⟩ := idx_rows t
  unfold iblk
  rw [View.read_apply]
  show V m c main_v1 _ = m (c.tc.loc main_arg1) _
  rw [V_v1 m c]
  show m (c.tc.loc main_arg1) _ = m (c.tc.loc main_arg1) _
  congr 1
  funext a
  apply Fin.ext
  match a with
  | ⟨0, _⟩ => show win0_1.index t (0 : Fin 2) * 256 + 1 * p.val = b.val; rw [r10, hb]; omega
  | ⟨1, _⟩ => show win0_1.index t (1 : Fin 2) * 1024 + 1 * i.val = i.val; rw [r11]; omega

/-- Row p of the cell state's block at point t is row 256·t + p of the cell state. -/
theorem blk2_apply (c : Dev nD) (t : Fin cfg0.N) (p : Fin 256) (i : Fin 1024) (b : Fin 8192) (hb : b.val = 256 * t.val + p.val) :
    (iblk m c 2 t : Vec Ideal S256x1024 .f32) (ix2 p i) = (m ((c.tc : Thread nD τ).loc main_arg2) : S8192x1024.Idx → EReal) (ix2 b i) := by
  obtain ⟨r00, r01, r10, r11, r20, r21, -⟩ := idx_rows t
  unfold iblk
  rw [View.read_apply]
  show V m c main_arg2 _ = m (c.tc.loc main_arg2) _
  rw [V_main_arg2 m c]
  show m (c.tc.loc main_arg2) _ = m (c.tc.loc main_arg2) _
  congr 1
  funext a
  apply Fin.ext
  match a with
  | ⟨0, _⟩ => show win0_2.index t (0 : Fin 2) * 256 + 1 * p.val = b.val; rw [r20, hb]; omega
  | ⟨1, _⟩ => show win0_2.index t (1 : Fin 2) * 1024 + 1 * i.val = i.val; rw [r21]; omega

/-- The input weights' block at every point is the whole matrix. -/
theorem blk3_apply (c : Dev nD) (t : Fin cfg0.N) (a : Fin 4096) (i : Fin 1024) :
    (iblk m c 3 t : Vec Ideal S4096x1024 .bf16) (ix2 a i) = (m ((c.tc : Thread nD τ).loc main_arg3) : S4096x1024.Idx → EReal) (ix2 a i) := by
  obtain ⟨w30, w31, w40, w41, w50, w60, w61, w70, w71, w80, w90⟩ := idx_whole t
  unfold iblk
  rw [View.read_apply]
  show V m c main_v2 _ = m (c.tc.loc main_arg3) _
  rw [V_v2 m c]
  show m (c.tc.loc main_arg3) _ = m (c.tc.loc main_arg3) _
  congr 1
  funext d
  apply Fin.ext
  match d with
  | ⟨0, _⟩ => show win0_3.index t (0 : Fin 2) * 4096 + 1 * a.val = a.val; rw [w30]; omega
  | ⟨1, _⟩ => show win0_3.index t (1 : Fin 2) * 1024 + 1 * i.val = i.val; rw [w31]; omega

/-- The hidden weights' block at every point is the whole matrix. -/
theorem blk4_apply (c : Dev nD) (t : Fin cfg0.N) (a : Fin 4096) (i : Fin 1024) :
    (iblk m c 4 t : Vec Ideal S4096x1024 .bf16) (ix2 a i) = (m ((c.tc : Thread nD τ).loc main_arg5) : S4096x1024.Idx → EReal) (ix2 a i) := by
  obtain ⟨w30, w31, w40, w41, w50, w60, w61, w70, w71, w80, w90⟩ := idx_whole t
  unfold iblk
  rw [View.read_apply]
  show V m c main_v3 _ = m (c.tc.loc main_arg5) _
  rw [V_v3 m c]
  show m (c.tc.loc main_arg5) _ = m (c.tc.loc main_arg5) _
  congr 1
  funext d
  apply Fin.ext
  match d with
  | ⟨0, _⟩ => show win0_4.index t (0 : Fin 2) * 4096 + 1 * a.val = a.val; rw [w40]; omega
  | ⟨1, _⟩ => show win0_4.index t (1 : Fin 2) * 1024 + 1 * i.val = i.val; rw [w41]; omega

/-- The bias's block at every point is the whole vector. -/
theorem blk5_apply (c : Dev nD) (t : Fin cfg0.N) (a : Fin 4096) :
    (iblk m c 5 t : Vec Ideal S4096 .f32) (ix1 a) = (m ((c.tc : Thread nD τ).loc main_arg4) : S4096.Idx → EReal) (ix1 a) := by
  obtain ⟨w30, w31, w40, w41, w50, w60, w61, w70, w71, w80, w90⟩ := idx_whole t
  unfold iblk
  rw [View.read_apply]
  show V m c main_arg4 _ = m (c.tc.loc main_arg4) _
  rw [V_main_arg4 m c]
  congr 1
  funext d
  apply Fin.ext
  match d with
  | ⟨0, _⟩ => show win0_5.index t (0 : Fin 1) * 4096 + 1 * a.val = a.val; rw [w50]; omega

/-- The gate scales' block at every point is the whole 4 × 1024 matrix. -/
theorem blk6_apply (c : Dev nD) (t : Fin cfg0.N) (a : Fin 4) (i : Fin 1024) :
    (iblk m c 6 t : Vec Ideal S4x1024 .f32) (ix2 a i) = (m ((c.tc : Thread nD τ).loc main_arg6) : S4x1024.Idx → EReal) (ix2 a i) := by
  obtain ⟨w30, w31, w40, w41, w50, w60, w61, w70, w71, w80, w90⟩ := idx_whole t
  unfold iblk
  rw [View.read_apply]
  show V m c main_arg6 _ = m (c.tc.loc main_arg6) _
  rw [V_main_arg6 m c]
  show m (c.tc.loc main_arg6) _ = m (c.tc.loc main_arg6) _
  congr 1
  funext d
  apply Fin.ext
  match d with
  | ⟨0, _⟩ => show win0_6.index t (0 : Fin 2) * 4 + 1 * a.val = a.val; rw [w60]; omega
  | ⟨1, _⟩ => show win0_6.index t (1 : Fin 2) * 1024 + 1 * i.val = i.val; rw [w61]; omega

/-- The gate shifts' block at every point is the whole 4 × 1024 matrix. -/
theorem blk7_apply (c : Dev nD) (t : Fin cfg0.N) (a : Fin 4) (i : Fin 1024) :
    (iblk m c 7 t : Vec Ideal S4x1024 .f32) (ix2 a i) = (m ((c.tc : Thread nD τ).loc main_arg7) : S4x1024.Idx → EReal) (ix2 a i) := by
  obtain ⟨w30, w31, w40, w41, w50, w60, w61, w70, w71, w80, w90⟩ := idx_whole t
  unfold iblk
  rw [View.read_apply]
  show V m c main_arg7 _ = m (c.tc.loc main_arg7) _
  rw [V_main_arg7 m c]
  show m (c.tc.loc main_arg7) _ = m (c.tc.loc main_arg7) _
  congr 1
  funext d
  apply Fin.ext
  match d with
  | ⟨0, _⟩ => show win0_7.index t (0 : Fin 2) * 4 + 1 * a.val = a.val; rw [w70]; omega
  | ⟨1, _⟩ => show win0_7.index t (1 : Fin 2) * 1024 + 1 * i.val = i.val; rw [w71]; omega

/-- The cell scale's block at every point is the whole vector. -/
theorem blk8_apply (c : Dev nD) (t : Fin cfg0.N) (a : Fin 1024) :
    (iblk m c 8 t : Vec Ideal S1024 .f32) (ix1 a) = (m ((c.tc : Thread nD τ).loc main_arg8) : S1024.Idx → EReal) (ix1 a) := by
  obtain ⟨w30, w31, w40, w41, w50, w60, w61, w70, w71, w80, w90⟩ := idx_whole t
  unfold iblk
  rw [View.read_apply]
  show V m c main_arg8 _ = m (c.tc.loc main_arg8) _
  rw [V_main_arg8 m c]
  congr 1
  funext d
  apply Fin.ext
  match d with
  | ⟨0, _⟩ => show win0_8.index t (0 : Fin 1) * 1024 + 1 * a.val = a.val; rw [w80]; omega

/-- The cell shift's block at every point is the whole vector. -/
theorem blk9_apply (c : Dev nD) (t : Fin cfg0.N) (a : Fin 1024) :
    (iblk m c 9 t : Vec Ideal S1024 .f32) (ix1 a) = (m ((c.tc : Thread nD τ).loc main_arg9) : S1024.Idx → EReal) (ix1 a) := by
  obtain ⟨w30, w31, w40, w41, w50, w60, w61, w70, w71, w80, w90⟩ := idx_whole t
  unfold iblk
  rw [View.read_apply]
  show V m c main_arg9 _ = m (c.tc.loc main_arg9) _
  rw [V_main_arg9 m c]
  congr 1
  funext d
  apply Fin.ext
  match d with
  | ⟨0, _⟩ => show win0_9.index t (0 : Fin 1) * 1024 + 1 * a.val = a.val; rw [w90]; omega

/-- The new hidden state of the launch contents of the ten arguments on core c. -/
abbrev resH (c : Dev nD) : Whole.A8192x1024 :=
  Whole.GH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The new cell state of the launch contents of the ten arguments on core c. -/
abbrev resC (c : Dev nD) : Whole.A8192x1024 :=
  Whole.GC (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- What point t writes back to the new-hidden array is rows 256·t … 256·t + 255 of the new hidden state: entry (p, q) of the block
    depends on row 256·t + p of the input, of the hidden state and of the cell state, which is row p of those windows' blocks. -/
theorem flushed10_eq (c : Dev nD) (t : Fin cfg0.N) :
    (dats m 0 c).flushed 10 t = ((cfg0.win 10).blk t).view.read (Elt Ideal) (resH m c) := by
  have ht : t.val < 32 := lt_of_lt_of_eq t.isLt N_0
  obtain ⟨-, -, -, -, -, -, o0, o1, -, -⟩ := idx_rows t
  rw [ValueP.flushed10 m c t]
  refine funext fun (y : S256x1024.Idx) => ?_
  obtain ⟨p, q, rfl⟩ : ∃ (p : Fin 256) (q : Fin 1024), y = ix2 p q := ⟨y 0, y 1, eq_ix2 y⟩
  have hp : p.val < 256 := p.isLt
  rw [View.read_apply]
  have hemb : (((cfg0.win 10).blk t).view.emb (ix2 p q) : S8192x1024.Idx) = ix2 (⟨256 * t.val + p.val, by omega⟩ : Fin 8192) q := by
    funext a; apply Fin.ext
    match a with
    | ⟨0, _⟩ => show win0_10.index t (0 : Fin 2) * 256 + 1 * p.val = 256 * t.val + p.val; rw [o0]; omega
    | ⟨1, _⟩ => show win0_10.index t (1 : Fin 2) * 1024 + 1 * q.val = q.val; rw [o1]; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = resH m c (((cfg0.win 10).blk t).view.emb (ix2 p q))
  rw [hemb]
  exact newH_entry _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ⟨256 * t.val + p.val, by omega⟩ p q
    (fun i => blk0_apply m c t p i _ rfl) (fun i => blk1_apply m c t p i _ rfl) (fun i => blk2_apply m c t p i _ rfl)
    (fun a i => blk3_apply m c t a i) (fun a i => blk4_apply m c t a i) (fun a => blk5_apply m c t a)
    (fun g j => blk6_apply m c t g j) (fun g j => blk7_apply m c t g j) (fun j => blk8_apply m c t j) (fun j => blk9_apply m c t j)

/-- What point t writes back to the new-cell array is rows 256·t … 256·t + 255 of the new cell state: entry (p, q) of the block
    depends on row 256·t + p of the input, of the hidden state and of the cell state, which is row p of those windows' blocks. -/
theorem flushed11_eq (c : Dev nD) (t : Fin cfg0.N) :
    (dats m 0 c).flushed 11 t = ((cfg0.win 11).blk t).view.read (Elt Ideal) (resC m c) := by
  have ht : t.val < 32 := lt_of_lt_of_eq t.isLt N_0
  obtain ⟨-, -, -, -, -, -, -, -, o0, o1⟩ := idx_rows t
  rw [ValueP.flushed11 m c t]
  refine funext fun (y : S256x1024.Idx) => ?_
  obtain ⟨p, q, rfl⟩ : ∃ (p : Fin 256) (q : Fin 1024), y = ix2 p q := ⟨y 0, y 1, eq_ix2 y⟩
  have hp : p.val < 256 := p.isLt
  rw [View.read_apply]
  have hemb : (((cfg0.win 11).blk t).view.emb (ix2 p q) : S8192x1024.Idx) = ix2 (⟨256 * t.val + p.val, by omega⟩ : Fin 8192) q := by
    funext a; apply Fin.ext
    match a with
    | ⟨0, _⟩ => show win0_11.index t (0 : Fin 2) * 256 + 1 * p.val = 256 * t.val + p.val; rw [o0]; omega
    | ⟨1, _⟩ => show win0_11.index t (1 : Fin 2) * 1024 + 1 * q.val = q.val; rw [o1]; omega
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = resC m c (((cfg0.win 11).blk t).view.emb (ix2 p q))
  rw [hemb]
  exact newC_entry _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ⟨256 * t.val + p.val, by omega⟩ p q
    (fun i => blk0_apply m c t p i _ rfl) (fun i => blk1_apply m c t p i _ rfl) (fun i => blk2_apply m c t p i _ rfl)
    (fun a i => blk3_apply m c t a i) (fun a i => blk4_apply m c t a i) (fun a => blk5_apply m c t a)
    (fun g j => blk6_apply m c t g j) (fun g j => blk7_apply m c t g j) (fun j => blk8_apply m c t j) (fun j => blk9_apply m c t j)

/-- Row r of the array is in the block of point r / 256. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨t, htv⟩ : ∃ t : Fin cfg0.N, t.val = (i 0).val / 256 :=
    ⟨⟨(i 0).val / 256, by rw [show cfg0.N = 32 from N_0]; omega⟩, rfl⟩
  obtain ⟨-, -, -, -, -, -, o0, o1, -, -⟩ := idx_rows t
  refine ⟨t, flush0_10 t, ?_⟩
  show i ∈ ((View.whole main_v4_0).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; rw [o0, htv]; omega
  | ⟨1, _⟩ => show win0_10.index t (1 : Fin 2) * 1024 ≤ (i 1).val ∧ (i 1).val < win0_10.index t (1 : Fin 2) * 1024 + 1024; rw [o1]; omega

/-- Row r of the array is in the block of point r / 256. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  obtain ⟨t, htv⟩ : ∃ t : Fin cfg0.N, t.val = (i 0).val / 256 :=
    ⟨⟨(i 0).val / 256, by rw [show cfg0.N = 32 from N_0]; omega⟩, rfl⟩
  obtain ⟨-, -, -, -, -, -, -, -, o0, o1⟩ := idx_rows t
  refine ⟨t, flush0_11 t, ?_⟩
  show i ∈ ((View.whole main_v4_1).slice (win0_11.rect t)).set
  rw [View.set_slice_whole, Rect.mem_set_unit]
  intro a
  match a with
  | ⟨0, _⟩ => show win0_11.index t (0 : Fin 2) * 256 ≤ (i 0).val ∧ (i 0).val < win0_11.index t (0 : Fin 2) * 256 + 256; rw [o0, htv]; omega
  | ⟨1, _⟩ => show win0_11.index t (1 : Fin 2) * 1024 ≤ (i 1).val ∧ (i 1).val < win0_11.index t (1 : Fin 2) * 1024 + 1024; rw [o1]; omega

/-- The 32 points' row ranges tile the 8192 rows, so the new-hidden array ends holding the new hidden state. -/
theorem final10 (c : Dev nD) : (dats m 0 c).arrAt 10 cfg0.N = resH m c :=
  (dats m 0 c).arrAt_eq_of_cover 10 (resH m c) (fun t _ => flushed10_eq m c t) cover10

/-- And the new-cell array the new cell state. -/
theorem final11 (c : Dev nD) : (dats m 0 c).arrAt 11 cfg0.N = resC m c :=
  (dats m 0 c).arrAt_eq_of_cover 11 (resC m c) (fun t _ => flushed11_eq m c t) cover11

/-- The kernel program's run with both result arrays named as functions of the launch contents of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4_0)
          = Whole.GH (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_v4_1)
          = Whole.GC (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final10 m c), (h c).2.1.trans (final11 m c), (h c).2.2⟩)
    (ValueP.run_blocks m ρ)

end Cert.KernelIdeal.KFinal

end
-- ==== Proof.LibStage.lean ====
/-
  Stage equations of a straight line of host operations in single-assignment form.

  A line of operations is STAGED along a ranking `rk` of the device's buffers when its k-th operation writes
  only buffers of rank `lo + k`, touches besides them only buffers of smaller rank, and computes what it writes
  from the buffers it does not write. Then no operation overwrites a buffer an earlier one wrote or read, so in
  the contents `after ops V` the line ends at, EVERY operation's equation holds at once:
  `after ops V b = op.result (after ops V) b` for each written `b` (`Staged.after_eq`), and a buffer ranked
  below the first stage keeps what it held (`Staged.after_of_lt`). The builders of Lib/StableHlo.lean are
  stages as soon as their operands rank below their result (`unary_stageAt` …); with the builder's
  `‹kind›_result` the equation reads `after ops V y = f (after ops V x)`.
-/
import Idealize.ShloMosaic.Lib.StableHlo.Run

namespace Idealize.ShloMosaic.StableHlo

variable {τ : Topo} {sig : RefSig} {Val : EltTy → Type}

/-- `op` is a stage at rank `lo`: every buffer it writes has rank `lo`, every buffer it touches without writing
    has a smaller rank, and what it writes is decided by the contents of the buffers it does not write. -/
structure StageAt (rk : DevRef τ sig → ℕ) (lo : ℕ) (op : HloOp τ sig Val) : Prop where
  reads_lt : ∀ b ∈ op.bufs, b ∉ op.writes → rk b < lo
  writes_eq : ∀ b ∈ op.writes, rk b = lo
  indep : ∀ F G : Valuation τ sig Val, (∀ b ∈ op.bufs, b ∉ op.writes → F b = G b) →
    ∀ b ∈ op.writes, op.result F b = op.result G b

/-- A line of operations staged from rank `lo` up to `hi`: the first a stage at `lo`, the next at `lo + 1`, …,
    and `hi` the rank after the last. -/
def Staged (rk : DevRef τ sig → ℕ) : ℕ → List (HloOp τ sig Val) → ℕ → Prop
  | lo, [], hi => lo = hi
  | lo, op :: post, hi => StageAt rk lo op ∧ Staged rk (lo + 1) post hi

namespace Staged

variable {rk : DevRef τ sig → ℕ}

theorem nil (lo : ℕ) : Staged rk lo ([] : List (HloOp τ sig Val)) lo := rfl

theorem cons {lo hi : ℕ} {op : HloOp τ sig Val} {post : List (HloOp τ sig Val)} (h : StageAt rk lo op)
    (hp : Staged rk (lo + 1) post hi) : Staged rk lo (op :: post) hi := ⟨h, hp⟩

/-- Two staged lines, the second from where the first ends, are one staged line. -/
theorem append {l₁ l₂ : List (HloOp τ sig Val)} {hi : ℕ} :
    ∀ {lo mid : ℕ}, Staged rk lo l₁ mid → Staged rk mid l₂ hi → Staged rk lo (l₁ ++ l₂) hi := by
  induction l₁ with
  | nil => intro lo mid h₁ h₂; cases (show lo = mid from h₁); exact h₂
  | cons op l ih => intro lo mid h₁ h₂; exact ⟨h₁.1, ih h₁.2 h₂⟩

/-- Every buffer a staged line writes has rank at least the line's first. -/
theorem le_rk_of_mem {l : List (HloOp τ sig Val)} {hi : ℕ} :
    ∀ {lo : ℕ}, Staged rk lo l hi → ∀ op ∈ l, ∀ b ∈ op.writes, lo ≤ rk b := by
  induction l with
  | nil => intro lo _ op hop; exact absurd hop List.not_mem_nil
  | cons o post ih =>
    intro lo h op hop b hb
    rcases List.mem_cons.mp hop with e | hop
    · exact Nat.le_of_eq ((e ▸ h.1).writes_eq b hb).symm
    · exact Nat.le_of_succ_le (ih h.2 op hop b hb)

/-- A buffer ranked below a staged line's first stage keeps its contents. -/
theorem after_of_lt {l : List (HloOp τ sig Val)} {lo hi : ℕ} (h : Staged rk lo l hi) (V : Valuation τ sig Val)
    {b : DevRef τ sig} (hb : rk b < lo) : after l V b = V b :=
  after_of_forall_not_mem l V fun op hop hw => absurd (h.le_rk_of_mem op hop b hw) (Nat.not_le.mpr hb)

/-- In the contents a staged line ends at, every operation's written buffers hold the operation's value AT THOSE
    CONTENTS: nothing after it rewrites what it wrote or what it read. -/
theorem after_eq {l : List (HloOp τ sig Val)} {hi : ℕ} :
    ∀ {lo : ℕ}, Staged rk lo l hi → ∀ (V : Valuation τ sig Val) (op : HloOp τ sig Val), op ∈ l →
      ∀ b ∈ op.writes, after l V b = op.result (after l V) b := by
  induction l with
  | nil => intro lo _ V op hop; exact absurd hop List.not_mem_nil
  | cons o post ih =>
    intro lo h V op hop b hb
    rw [after_cons]
    rcases List.mem_cons.mp hop with e | hop
    · subst e
      have ho := h.1
      have hpost := h.2
      have hlt : rk b < lo + 1 := Nat.lt_succ_of_le (Nat.le_of_eq (ho.writes_eq b hb))
      rw [hpost.after_of_lt _ hlt]
      refine ho.indep _ _ (fun c hc hcw => ?_) b hb
      rw [hpost.after_of_lt _ (Nat.lt_succ_of_lt (ho.reads_lt c hc hcw)), HloOp.result_of_not_mem _ V hcw]
    · exact ih h.2 _ op hop b hb

end Staged

/-! ## The builders as stages -/

section Builders

variable {rk : DevRef τ sig → ℕ} {lo : ℕ}

private theorem not_mem_single {x y : Ref sig .tc} (h1 : rk (Proc.devRef (τ := τ) .tc x) < lo)
    (h2 : rk (Proc.devRef (τ := τ) .tc y) = lo) :
    (Proc.devRef (τ := τ) .tc x) ∉ ({Proc.devRef (τ := τ) .tc y} : Finset (DevRef τ sig)) := fun hm => by
  rw [Finset.mem_singleton.mp hm, h2] at h1; exact Nat.lt_irrefl _ h1

theorem nullary_stageAt (y : Ref sig .tc) (v : y.ty.Contents Val) (hy)
    (h : rk (Proc.devRef (τ := τ) .tc y) = lo) : StageAt rk lo (nullary (τ := τ) y v hy) where
  reads_lt b hb hw := absurd hb hw
  writes_eq b hb := by obtain rfl := Finset.mem_singleton.mp hb; exact h
  indep F G _ b hb := by
    obtain rfl := Finset.mem_singleton.mp hb
    exact (nullary_result y v hy F).trans (nullary_result y v hy G).symm

theorem unary_stageAt (x y : Ref sig .tc) (f : x.ty.Contents Val → y.ty.Contents Val) (hx hy)
    (h1 : rk (Proc.devRef (τ := τ) .tc x) < lo) (h2 : rk (Proc.devRef (τ := τ) .tc y) = lo) :
    StageAt rk lo (unary (τ := τ) x y f hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [unary_result, unary_result, h _ (Finset.mem_insert_self _ _) (not_mem_single h1 h2)]

theorem reshape_stageAt (x y : Ref sig .tc) (he hn hx hy)
    (h1 : rk (Proc.devRef (τ := τ) .tc x) < lo) (h2 : rk (Proc.devRef (τ := τ) .tc y) = lo) :
    StageAt rk lo (reshape (τ := τ) (Val := Val) x y he hn hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [reshape_result, reshape_result, h _ (Finset.mem_insert_self _ _) (not_mem_single h1 h2)]

theorem binary_stageAt (a b y : Ref sig .tc) (f : a.ty.Contents Val → b.ty.Contents Val → y.ty.Contents Val) (ha hb hy)
    (h1 : rk (Proc.devRef (τ := τ) .tc a) < lo) (h2 : rk (Proc.devRef (τ := τ) .tc b) < lo)
    (h3 : rk (Proc.devRef (τ := τ) .tc y) = lo) : StageAt rk lo (binary (τ := τ) a b y f ha hb hy) where
  reads_lt c hc hw := by
    rcases Finset.mem_insert.mp hc with rfl | hc
    · exact h1
    rcases Finset.mem_insert.mp hc with rfl | hc
    · exact h2
    · exact absurd hc hw
  writes_eq c hc := by obtain rfl := Finset.mem_singleton.mp hc; exact h3
  indep F G h c hc := by
    obtain rfl := Finset.mem_singleton.mp hc
    have ea := h _ (Finset.mem_insert_self _ _) (not_mem_single h1 h3)
    have eb := h _ (Finset.mem_insert_of_mem (Finset.mem_insert_self _ _)) (not_mem_single h2 h3)
    exact (binary_result a b y f ha hb hy F).trans
      ((congrArg₂ f ea eb).trans (binary_result a b y f ha hb hy G).symm)

theorem ternary_stageAt (c a b y : Ref sig .tc)
    (f : c.ty.Contents Val → a.ty.Contents Val → b.ty.Contents Val → y.ty.Contents Val) (hc ha hb hy)
    (h0 : rk (Proc.devRef (τ := τ) .tc c) < lo) (h1 : rk (Proc.devRef (τ := τ) .tc a) < lo)
    (h2 : rk (Proc.devRef (τ := τ) .tc b) < lo) (h3 : rk (Proc.devRef (τ := τ) .tc y) = lo) :
    StageAt rk lo (ternary (τ := τ) c a b y f hc ha hb hy) where
  reads_lt d hd hw := by
    rcases Finset.mem_insert.mp hd with rfl | hd
    · exact h0
    rcases Finset.mem_insert.mp hd with rfl | hd
    · exact h1
    rcases Finset.mem_insert.mp hd with rfl | hd
    · exact h2
    · exact absurd hd hw
  writes_eq d hd := by obtain rfl := Finset.mem_singleton.mp hd; exact h3
  indep F G h d hd := by
    obtain rfl := Finset.mem_singleton.mp hd
    have ec := h _ (Finset.mem_insert_self _ _) (not_mem_single h0 h3)
    have ea := h _ (Finset.mem_insert_of_mem (Finset.mem_insert_self _ _)) (not_mem_single h1 h3)
    have eb := h _ (Finset.mem_insert_of_mem (Finset.mem_insert_of_mem (Finset.mem_insert_self _ _))) (not_mem_single h2 h3)
    refine (ternary_result c a b y f hc ha hb hy F).trans (Eq.trans ?_ (ternary_result c a b y f hc ha hb hy G).symm)
    rw [ec, ea, eb]

end Builders

end Idealize.ShloMosaic.StableHlo
-- ==== Proof.RefOps.lean ====
/-
  The reference program's @main as one straight line of host operations.

  @main runs 136 operations, the two calls of the standard-deviation function (and, inside it, of the variance function
  and of its closing select) unfolded at their call sites over the buffers those calls name. Operation number k of the
  line (from 0) writes buffer 10 + k of the device's table and reads only buffers of smaller number (the ten arguments
  are buffers 0 … 9), so the line is in single-assignment order: in the contents it ends at, every operation's
  equation holds at once.
-/
import proofs.«166081_j78262894067860_1_alg».proof.Proof.Gen.ReferenceIdeal
import proofs.«166081_j78262894067860_1_alg».proof.Proof.LibStage
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first window of @main: the two products and the bias, the gates' layer norm (its standard deviation the
    first call), the four gates cut out, and the cell row before its own layer norm. -/
abbrev ops0 : List (HloOp τ sig (Elt F)) :=
  [ binary main_arg0 main_arg3 main_v0 (fun l r => Host.dotGeneral dot_S8192x1024_S4096x1024_S8192x4096_1_1_0_0_n_n none l r),
    unary main_arg4 main_v1 (broadcastInDim S1x4096 ![1] bcast_S4096_S1x4096_1),
    unary main_v1 main_v2 (broadcastInDim S8192x4096 ![0, 1] bcast_S1x4096_S8192x4096_0_1),
    binary main_v0 main_v2 main_v3 addf,
    binary main_arg1 main_arg5 main_v4 (fun l r => Host.dotGeneral dot_S8192x1024_S4096x1024_S8192x4096_1_1_0_0_n_n none l r),
    binary main_v3 main_v4 main_v5 addf,
    reshape main_v5 main_v6 rfl shapeCasts_S8192x4096_S8192x4x1024,
    nullary main_cst (constant S_ .f32 0x00000000#32),
    binary main_v6 main_cst main_v7 (fun x v => Host.reduceAdd x v reducesTo_S8192x4x1024_S8192x4_d2 h_S_),
    unary main_v7 main_v8 (broadcastInDim S8192x4x1 ![0, 1] bcast_S8192x4_S8192x4x1_0_1),
    nullary main_cst_0 (constant S_ .f32 0x44800000#32),
    unary main_cst_0 main_v9 (broadcastInDim S8192x4x1 ![] bcast_S_S8192x4x1),
    binary main_v8 main_v9 main_v10 Host.divf,
    nullary main_c (constantI S_ 32 1#32),
    TRef.nullary main_call0.call0.cst (constant S_ .f32 0x00000000#32),
    TRef.binary (.of main_v6) main_call0.call0.cst main_call0.call0.v0 (fun x v => Host.reduceAdd x v reducesTo_S8192x4x1024_S8192x4_d2 h_S_),
    TRef.unary main_call0.call0.v0 main_call0.call0.v1 (broadcastInDim S8192x4x1 ![0, 1] bcast_S8192x4_S8192x4x1_0_1),
    TRef.nullary main_call0.call0.cst_0 (constant S_ .f32 0x44800000#32),
    TRef.unary main_call0.call0.cst_0 main_call0.call0.v2 (broadcastInDim S8192x4x1 ![] bcast_S_S8192x4x1),
    TRef.binary main_call0.call0.v1 main_call0.call0.v2 main_call0.call0.v3 Host.divf,
    TRef.unary main_call0.call0.v3 main_call0.call0.v4 (broadcastInDim S8192x4x1024 ![0, 1, 2] bcast_S8192x4x1_S8192x4x1024_0_1_2),
    TRef.binary (.of main_v6) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x44800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x4x1024_S8192x4_d2 h_S_),
    TRef.unary main_call0.call0.v9 main_call0.call0.v10 (broadcastInDim S8192x4x1 ![0, 1] bcast_S8192x4_S8192x4x1_0_1),
    TRef.unary main_call0.call0.v8 main_call0.call0.v11 (broadcastInDim S8192x4x1 ![] bcast_S_S8192x4x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8192x4x1 ![] bcast_S_S8192x4x1),
    TRef.ternary main_call0.call0.v13 main_call0.call0.v12 main_call0.call0.call0.v1 main_call0.call0.call0.v2 (fun p a b => select (broadcastInDim S8192x4x1 ![] bcast_S_S8192x4x1 p) a b),
    TRef.unary main_call0.call0.call0.v2 main_call0.v1 Host.sqrt,
    unary main_v10 main_v12 (broadcastInDim S8192x4x1024 ![0, 1, 2] bcast_S8192x4x1_S8192x4x1024_0_1_2),
    binary main_v6 main_v12 main_v13 subf,
    unary main_arg6 main_v14 (broadcastInDim S1x4x1024 ![1, 2] bcast_S4x1024_S1x4x1024_1_2),
    unary main_v14 main_v15 (broadcastInDim S8192x4x1024 ![0, 1, 2] bcast_S1x4x1024_S8192x4x1024_0_1_2),
    binary main_v15 main_v13 main_v16 mulf,
    nullary main_cst_1 (constant S_ .f32 0x358637BD#32),
    unary main_cst_1 main_v17 (broadcastInDim S8192x4x1 ![] bcast_S_S8192x4x1),
    binary main_v11 main_v17 main_v18 addf,
    unary main_v18 main_v19 (broadcastInDim S8192x4x1024 ![0, 1, 2] bcast_S8192x4x1_S8192x4x1024_0_1_2),
    binary main_v16 main_v19 main_v20 Host.divf,
    unary main_arg7 main_v21 (broadcastInDim S1x4x1024 ![1, 2] bcast_S4x1024_S1x4x1024_1_2),
    unary main_v21 main_v22 (broadcastInDim S8192x4x1024 ![0, 1, 2] bcast_S1x4x1024_S8192x4x1024_0_1_2),
    binary main_v20 main_v22 main_v23 addf,
    unary main_v23 main_v24 (extractStridedSlice S8192x1x1024 ![0, 0, 0] · slices_S8192x4x1024_S8192x1x1024_0_0_0),
    reshape main_v24 main_v25 rfl shapeCasts_S8192x1x1024_S8192x1024,
    unary main_v23 main_v26 (extractStridedSlice S8192x1x1024 ![0, 1, 0] · slices_S8192x4x1024_S8192x1x1024_0_1_0),
    reshape main_v26 main_v27 rfl shapeCasts_S8192x1x1024_S8192x1024,
    unary main_v23 main_v28 (extractStridedSlice S8192x1x1024 ![0, 2, 0] · slices_S8192x4x1024_S8192x1x1024_0_2_0),
    reshape main_v28 main_v29 rfl shapeCasts_S8192x1x1024_S8192x1024,
    unary main_v23 main_v30 (extractStridedSlice S8192x1x1024 ![0, 3, 0] · slices_S8192x4x1024_S8192x1x1024_0_3_0),
    reshape main_v30 main_v31 rfl shapeCasts_S8192x1x1024_S8192x1024,
    nullary main_cst_2 (constant S_ .f32 0x3F800000#32),
    unary main_cst_2 main_v32 (broadcastInDim S8192x1024 ![] bcast_S_S8192x1024),
    binary main_v27 main_v32 main_v33 addf,
    unary main_v33 main_v34 Host.negf,
    unary main_v34 main_v35 Host.exp,
    nullary main_cst_3 (constant S_ .f32 0x3F800000#32),
    unary main_cst_3 main_v36 (broadcastInDim S8192x1024 ![] bcast_S_S8192x1024),
    binary main_v36 main_v35 main_v37 addf,
    nullary main_cst_4 (constant S_ .f32 0x3F800000#32),
    unary main_cst_4 main_v38 (broadcastInDim S8192x1024 ![] bcast_S_S8192x1024),
    binary main_v38 main_v37 main_v39 Host.divf,
    binary main_arg2 main_v39 main_v40 mulf,
    unary main_v25 main_v41 Host.negf,
    unary main_v41 main_v42 Host.exp,
    nullary main_cst_5 (constant S_ .f32 0x3F800000#32),
    unary main_cst_5 main_v43 (broadcastInDim S8192x1024 ![] bcast_S_S8192x1024),
    binary main_v43 main_v42 main_v44 addf,
    nullary main_cst_6 (constant S_ .f32 0x3F800000#32),
    unary main_cst_6 main_v45 (broadcastInDim S8192x1024 ![] bcast_S_S8192x1024),
    binary main_v45 main_v44 main_v46 Host.divf,
    unary main_v29 main_v47 Host.tanh,
    binary main_v46 main_v47 main_v48 mulf,
    binary main_v40 main_v48 main_v49 addf,
    nullary main_cst_7 (constant S_ .f32 0x00000000#32) ]

/-- The second window: the cell row's layer norm (its standard deviation the second call), the new cell and the new
    hidden rows. -/
abbrev ops1 : List (HloOp τ sig (Elt F)) :=
  [ binary main_v49 main_cst_7 main_v50 (fun x v => Host.reduceAdd x v reducesTo_S8192x1024_S8192_d1 h_S_),
    unary main_v50 main_v51 (broadcastInDim S8192x1 ![0] bcast_S8192_S8192x1_0),
    nullary main_cst_8 (constant S_ .f32 0x44800000#32),
    unary main_cst_8 main_v52 (broadcastInDim S8192x1 ![] bcast_S_S8192x1),
    binary main_v51 main_v52 main_v53 Host.divf,
    nullary main_c_9 (constantI S_ 32 1#32),
    TRef.nullary main_call1.call0.cst (constant S_ .f32 0x00000000#32),
    TRef.binary (.of main_v49) main_call1.call0.cst main_call1.call0.v0 (fun x v => Host.reduceAdd x v reducesTo_S8192x1024_S8192_d1 h_S_),
    TRef.unary main_call1.call0.v0 main_call1.call0.v1 (broadcastInDim S8192x1 ![0] bcast_S8192_S8192x1_0),
    TRef.nullary main_call1.call0.cst_0 (constant S_ .f32 0x44800000#32),
    TRef.unary main_call1.call0.cst_0 main_call1.call0.v2 (broadcastInDim S8192x1 ![] bcast_S_S8192x1),
    TRef.binary main_call1.call0.v1 main_call1.call0.v2 main_call1.call0.v3 Host.divf,
    TRef.unary main_call1.call0.v3 main_call1.call0.v4 (broadcastInDim S8192x1024 ![0, 1] bcast_S8192x1_S8192x1024_0_1),
    TRef.binary (.of main_v49) main_call1.call0.v4 main_call1.call0.v5 subf,
    TRef.binary main_call1.call0.v5 main_call1.call0.v5 main_call1.call0.v6 mulf,
    TRef.unary (.of main_c_9) main_call1.call0.v7 (sitofp .f32),
    TRef.nullary main_call1.call0.cst_1 (constant S_ .f32 0x44800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x1024_S8192_d1 h_S_),
    TRef.unary main_call1.call0.v9 main_call1.call0.v10 (broadcastInDim S8192x1 ![0] bcast_S8192_S8192x1_0),
    TRef.unary main_call1.call0.v8 main_call1.call0.v11 (broadcastInDim S8192x1 ![] bcast_S_S8192x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S8192x1 ![] bcast_S_S8192x1),
    TRef.ternary main_call1.call0.v13 main_call1.call0.v12 main_call1.call0.call0.v1 main_call1.call0.call0.v2 (fun p a b => select (broadcastInDim S8192x1 ![] bcast_S_S8192x1 p) a b),
    TRef.unary main_call1.call0.call0.v2 main_call1.v1 Host.sqrt,
    unary main_v53 main_v55 (broadcastInDim S8192x1024 ![0, 1] bcast_S8192x1_S8192x1024_0_1),
    binary main_v49 main_v55 main_v56 subf,
    unary main_arg8 main_v57 (broadcastInDim S1x1024 ![1] bcast_S1024_S1x1024_1),
    unary main_v57 main_v58 (broadcastInDim S8192x1024 ![0, 1] bcast_S1x1024_S8192x1024_0_1),
    binary main_v58 main_v56 main_v59 mulf,
    nullary main_cst_10 (constant S_ .f32 0x358637BD#32),
    unary main_cst_10 main_v60 (broadcastInDim S8192x1 ![] bcast_S_S8192x1),
    binary main_v54 main_v60 main_v61 addf,
    unary main_v61 main_v62 (broadcastInDim S8192x1024 ![0, 1] bcast_S8192x1_S8192x1024_0_1),
    binary main_v59 main_v62 main_v63 Host.divf,
    unary main_arg9 main_v64 (broadcastInDim S1x1024 ![1] bcast_S1024_S1x1024_1),
    unary main_v64 main_v65 (broadcastInDim S8192x1024 ![0, 1] bcast_S1x1024_S8192x1024_0_1),
    binary main_v63 main_v65 main_v66 addf,
    unary main_v66 main_v67 Host.tanh,
    unary main_v31 main_v68 Host.negf,
    unary main_v68 main_v69 Host.exp,
    nullary main_cst_11 (constant S_ .f32 0x3F800000#32),
    unary main_cst_11 main_v70 (broadcastInDim S8192x1024 ![] bcast_S_S8192x1024),
    binary main_v70 main_v69 main_v71 addf,
    nullary main_cst_12 (constant S_ .f32 0x3F800000#32),
    unary main_cst_12 main_v72 (broadcastInDim S8192x1024 ![] bcast_S_S8192x1024),
    binary main_v72 main_v71 main_v73 Host.divf,
    binary main_v67 main_v73 main_v74 mulf ]

/-- @main's operations, in order. -/
abbrev ops : List (HloOp τ sig (Elt F)) := ops0 ++ ops1

set_option maxRecDepth 4096 in
set_option maxHeartbeats 4000000 in
theorem main_part0_eq (c : Dev nD) : main_part0 (F := F) c = seq ops0 := by
  simp only [main_part0, fn_std.body, fn_var.body, fn_where.body, seq, bind_assoc, pure_bind]
  rfl

set_option maxRecDepth 4096 in
set_option maxHeartbeats 4000000 in
theorem main_part1_eq (c : Dev nD) : main_part1 (F := F) c = seq ops1 := by
  simp only [main_part1, fn_std_0.body, fn_var_1.body, fn_where_2.body, seq, bind_assoc, pure_bind]
  rfl

/-- @main is that straight line. -/
theorem main_eq (c : Dev nD) : main (F := F) c = seq ops := by
  rw [seq_append]
  show (main_part0 c >>= fun _ => main_part1 c) = _
  rw [main_part0_eq, main_part1_eq]

end Cert.ReferenceIdeal.Line

end
-- ==== Proof.RefRun.lean ====
/-
  The reference's run, and its operations' equations in the contents the run ends at.

  Rank a buffer by its number in the device's table. Operation k of the reference's line writes the buffer of rank
  10 + k and reads buffers of smaller rank, so the line is staged along this ranking: in the contents `after ops V`
  it ends at, each operation's result buffer holds the operation's function of its operands' contents THERE
  (`st_nullary` … `st_ternary`, one per arity, each taking the operation's place in the line), and the ten argument
  buffers hold what they held (`kept`). The run itself: every weakly fair execution of @main ends with each buffer at
  that fold of the launch contents.
-/
import proofs.«166081_j78262894067860_1_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A buffer's rank: its number in its table (every buffer of this program is in the one table of tensor values). -/
def rk : DevRef τ sig → ℕ := fun b => b.idx.val

set_option maxRecDepth 8192 in
set_option maxHeartbeats 4000000 in
theorem staged0 : Staged (τ := τ) (Val := Elt F) rk 10 ops0 93 := by
  repeat' (first
    | exact Staged.nil _
    | refine Staged.cons ?_ ?_)
  all_goals first
    | exact nullary_stageAt _ _ _ rfl
    | exact unary_stageAt _ _ _ _ _ (by decide) rfl
    | exact reshape_stageAt _ _ _ _ _ _ (by decide) rfl
    | exact binary_stageAt _ _ _ _ _ _ _ (by decide) (by decide) rfl
    | exact ternary_stageAt _ _ _ _ _ _ _ _ _ (by decide) (by decide) (by decide) rfl

set_option maxRecDepth 8192 in
set_option maxHeartbeats 4000000 in
theorem staged1 : Staged (τ := τ) (Val := Elt F) rk 93 ops1 146 := by
  repeat' (first
    | exact Staged.nil _
    | refine Staged.cons ?_ ?_)
  all_goals first
    | exact nullary_stageAt _ _ _ rfl
    | exact unary_stageAt _ _ _ _ _ (by decide) rfl
    | exact reshape_stageAt _ _ _ _ _ _ (by decide) rfl
    | exact binary_stageAt _ _ _ _ _ _ _ (by decide) (by decide) rfl
    | exact ternary_stageAt _ _ _ _ _ _ _ _ _ (by decide) (by decide) (by decide) rfl

/-- The whole line is staged from rank 10 (the first buffer after the ten arguments) to rank 146. -/
theorem staged : Staged (τ := τ) (Val := Elt F) rk 10 ops 146 := staged0.append staged1

variable (V : Valuation τ sig (Elt F))

/-- An argument buffer (rank below 10) holds at the end what it held at the start. -/
theorem kept {b : DevRef τ sig} (hb : rk b < 10) : after ops V b = V b := (staged (F := F)).after_of_lt V hb

/-! The operation at place `k` of the line (it writes the buffer of number `10 + k`), as an equation between the
    contents the line ends at. The place is given as `ops[k]? = some …`, which `rfl` proves at a literal `k`. -/

theorem st_nullary (k : ℕ) {y : Ref sig .tc} {v : y.ty.Contents (Elt F)} {hy}
    (h : (ops : List (HloOp τ sig (Elt F)))[k]? = some (nullary y v hy)) :
    after ops V (Proc.devRef .tc y) = v :=
  ((staged (F := F)).after_eq V _ (List.mem_of_getElem? h) _ (Finset.mem_singleton_self _)).trans (nullary_result y v hy _)

theorem st_unary (k : ℕ) {x y : Ref sig .tc} {f : x.ty.Contents (Elt F) → y.ty.Contents (Elt F)} {hx hy}
    (h : (ops : List (HloOp τ sig (Elt F)))[k]? = some (unary x y f hx hy)) :
    after ops V (Proc.devRef .tc y) = f (after ops V (Proc.devRef .tc x)) :=
  ((staged (F := F)).after_eq V _ (List.mem_of_getElem? h) _ (Finset.mem_singleton_self _)).trans (unary_result x y f hx hy _)

theorem st_reshape (k : ℕ) {x y : Ref sig .tc} {he hn hx hy}
    (h : (ops : List (HloOp τ sig (Elt F)))[k]? = some (reshape x y he hn hx hy)) :
    after ops V (Proc.devRef .tc y) = fun i => he ▸ shapeCast y.ty.shape (after ops V (Proc.devRef .tc x)) hn i :=
  ((staged (F := F)).after_eq V _ (List.mem_of_getElem? h) _ (Finset.mem_singleton_self _)).trans (reshape_result x y he hn hx hy _)

theorem st_binary (k : ℕ) {a b y : Ref sig .tc} {f : a.ty.Contents (Elt F) → b.ty.Contents (Elt F) → y.ty.Contents (Elt F)} {ha hb hy}
    (h : (ops : List (HloOp τ sig (Elt F)))[k]? = some (binary a b y f ha hb hy)) :
    after ops V (Proc.devRef .tc y) = f (after ops V (Proc.devRef .tc a)) (after ops V (Proc.devRef .tc b)) :=
  ((staged (F := F)).after_eq V _ (List.mem_of_getElem? h) _ (Finset.mem_singleton_self _)).trans (binary_result a b y f ha hb hy _)

theorem st_ternary (k : ℕ) {c a b y : Ref sig .tc}
    {f : c.ty.Contents (Elt F) → a.ty.Contents (Elt F) → b.ty.Contents (Elt F) → y.ty.Contents (Elt F)} {hc ha hb hy}
    (h : (ops : List (HloOp τ sig (Elt F)))[k]? = some (ternary c a b y f hc ha hb hy)) :
    after ops V (Proc.devRef .tc y)
      = f (after ops V (Proc.devRef .tc c)) (after ops V (Proc.devRef .tc a)) (after ops V (Proc.devRef .tc b)) :=
  ((staged (F := F)).after_eq V _ (List.mem_of_getElem? h) _ (Finset.mem_singleton_self _)).trans (ternary_result c a b y f hc ha hb hy _)

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem ops0_sub : (ops0 : List (HloOp τ sig (Elt F))).Forall fun op => op.bufs ⊆ tcRefs τ sig := by
  simp only [List.Forall]
  repeat' apply And.intro
  all_goals first
    | exact nullary_bufs_sub ..
    | exact unary_bufs_sub ..
    | exact reshape_bufs_sub ..
    | exact binary_bufs_sub ..
    | exact ternary_bufs_sub ..

set_option maxRecDepth 8192 in
set_option maxHeartbeats 4000000 in
theorem ops1_sub : (ops1 : List (HloOp τ sig (Elt F))).Forall fun op => op.bufs ⊆ tcRefs τ sig := by
  simp only [List.Forall]
  repeat' apply And.intro
  all_goals first
    | exact nullary_bufs_sub ..
    | exact unary_bufs_sub ..
    | exact reshape_bufs_sub ..
    | exact binary_bufs_sub ..
    | exact ternary_bufs_sub ..

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
set_option maxHeartbeats 4000000 in
theorem ops0_fresh : (ops0 : List (HloOp τ sig (Elt F))).Forall fun op => op.fresh = ∅ := by
  simp only [List.Forall]; repeat' constructor

set_option maxRecDepth 8192 in
set_option maxHeartbeats 4000000 in
theorem ops1_fresh : (ops1 : List (HloOp τ sig (Elt F))).Forall fun op => op.fresh = ∅ := by
  simp only [List.Forall]; repeat' constructor

/-- On every device, from any memory with zero counters: every weakly fair execution of @main terminates, with each
    buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (hfresh := fun _ op h => (List.mem_append.mp h).elim
      (List.forall_iff_forall_mem.mp ops0_fresh op) (List.forall_iff_forall_mem.mp ops1_fresh op))

end Cert.ReferenceIdeal.Line

end
-- ==== Proof.RefArr.lean ====
/-
  The contents the reference's line ends at, buffer by buffer, as arrays over the extended reals.
-/
import proofs.«166081_j78262894067860_1_alg».proof.Proof.RefRun
import Idealize.ShloMosaic.PureOps.Ideal

noncomputable section

namespace Cert.ReferenceIdeal.Read

open Cert.ReferenceIdeal Cert.ReferenceIdeal.Gen Cert.ReferenceIdeal.Line Idealize.ShloMosaic Idealize.ShloMosaic.TcCoe Idealize.ShloMosaic.StableHlo

variable (V : Valuation τ sig (Elt Ideal))

/-- Buffer `r` in the contents the line ends at. -/
abbrev W (r : Ref sig .tc) : r.ty.Contents (Elt Ideal) := after ops V (Proc.devRef .tc r)

/-- Buffer `r` in the contents the line starts from. -/
abbrev W0 (r : Ref sig .tc) : r.ty.Contents (Elt Ideal) := V (Proc.devRef .tc r)

/-- The argument buffers end as they started. -/
theorem W_arg0 : W V main_arg0 = W0 V main_arg0 := kept V (by decide)
theorem W_arg1 : W V main_arg1 = W0 V main_arg1 := kept V (by decide)
theorem W_arg2 : W V main_arg2 = W0 V main_arg2 := kept V (by decide)
theorem W_arg3 : W V main_arg3 = W0 V main_arg3 := kept V (by decide)
theorem W_arg4 : W V main_arg4 = W0 V main_arg4 := kept V (by decide)
theorem W_arg5 : W V main_arg5 = W0 V main_arg5 := kept V (by decide)
theorem W_arg6 : W V main_arg6 = W0 V main_arg6 := kept V (by decide)
theorem W_arg7 : W V main_arg7 = W0 V main_arg7 := kept V (by decide)
theorem W_arg8 : W V main_arg8 = W0 V main_arg8 := kept V (by decide)
theorem W_arg9 : W V main_arg9 = W0 V main_arg9 := kept V (by decide)

/-! The argument arrays as the line starts from them, and the buffers the value lemmas speak of as the line ends at them,
    as arrays of extended reals (a buffer's type is a lookup in the signature; these names carry the array type). -/

abbrev aX : S8192x1024.Idx → EReal := W0 V main_arg0
abbrev aH : S8192x1024.Idx → EReal := W0 V main_arg1
abbrev aC : S8192x1024.Idx → EReal := W0 V main_arg2
abbrev aWih : S4096x1024.Idx → EReal := W0 V main_arg3
abbrev aB : S4096.Idx → EReal := W0 V main_arg4
abbrev aWhh : S4096x1024.Idx → EReal := W0 V main_arg5
abbrev aGm : S4x1024.Idx → EReal := W0 V main_arg6
abbrev aBt : S4x1024.Idx → EReal := W0 V main_arg7
abbrev aGc : S1024.Idx → EReal := W0 V main_arg8
abbrev aBc : S1024.Idx → EReal := W0 V main_arg9
abbrev a6 : S8192x4x1024.Idx → EReal := W V main_v6
abbrev a23 : S8192x4x1024.Idx → EReal := W V main_v23
abbrev a49 : S8192x1024.Idx → EReal := W V main_v49
abbrev a66 : S8192x1024.Idx → EReal := W V main_v66
abbrev a73 : S8192x1024.Idx → EReal := W V main_v73
abbrev a74 : S8192x1024.Idx → EReal := W V main_v74

/-! Worked stage equations. The result's array type is ascribed and the float family, shape and format of the operation
    are written out, since a buffer's type is a lookup in the signature that unification does not open by itself. -/

/-- Operation 3 of the line (it writes buffer 13, `main_v3`) adds `main_v0` and `main_v2`. -/
example : (W V main_v3 : FVec Ideal S8192x4096 .f32) = addf (F := Ideal) (s := S8192x4096) (φ := .f32) (W V main_v0) (W V main_v2) :=
  st_binary V 3 rfl

/-- Operation 1 (buffer 11, `main_v1`) lays the bias out as one row. -/
example : (W V main_v1 : FVec Ideal S1x4096 .f32) = broadcastInDim S1x4096 ![1] bcast_S4096_S1x4096_1 (W V main_arg4 : FVec Ideal S4096 .f32) :=
  st_unary V 1 rfl

/-- Operation 6 (buffer 16, `main_v6`) regroups the columns in fours. -/
example : (W V main_v6 : FVec Ideal S8192x4x1024 .f32)
    = shapeCast S8192x4x1024 (W V main_v5 : FVec Ideal S8192x4096 .f32) shapeCasts_S8192x4096_S8192x4x1024 := st_reshape V 6 rfl

/-- Operation 19 (buffer 29), inside the variance function: its buffers by their names in the table. -/
example : (W V main_call0_call0_v3 : FVec Ideal S8192x4x1 .f32)
    = Host.divf (F := Ideal) (s := S8192x4x1) (φ := .f32) (W V main_call0_call0_v1) (W V main_call0_call0_v2) := st_binary V 19 rfl

end Cert.ReferenceIdeal.Read

end
-- ==== Proof.RefLin.lean ====
/-
  The reference's pre-activations at an index.

  The two products (each contracting the second axis of both operands), the bias laid out along the rows and added
  between them, and the result regrouped as [8192, 4, 1024]: entry (b, g, j) is entry g·1024 + j of row b's
  pre-activations `Spec.lin` (the bias added after the second product instead of between the two: addition of
  extended reals is commutative and associative).
-/
import proofs.«166081_j78262894067860_1_alg».proof.Proof.RefArr
import proofs.«166081_j78262894067860_1_alg».proof.Proof.Spec
import proofs.«166081_j78262894067860_1_alg».proof.Proof.LibDotFormats
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Line Idealize.ShloMosaic Idealize.ShloMosaic.TcCoe Idealize.ShloMosaic.StableHlo Idealize.ShloMosaic.ValueIdx
open scoped BigOperators

variable (V : Valuation τ sig (Elt Ideal))

/-- A product contracting the second axis of both operands, at (p, q): the sum over k of lhs (p, k) · rhs (q, k). -/
private theorem dot_rows_apply (lhs : FVec Ideal S8192x1024 .f32) (rhs : FVec Ideal S4096x1024 .f32) (p : Fin 8192) (q : Fin 4096) :
    Host.dotGeneral (F := Ideal) dot_S8192x1024_S4096x1024_S8192x4096_1_1_0_0_n_n none lhs rhs (ix2 p q)
      = ∑ k : Fin 1024, lhs (ix2 p k) * rhs (ix2 q k) := by
  simp only [Host.dotGeneral]
  rw [LibDotFormats.eq_transposedRhs dot_S8192x1024_S4096x1024_S8192x4096_1_1_0_0_n_n rfl rfl rfl rfl rfl rfl,
    Ideal.dotGeneral_apply]
  exact LibDotFormats.rows_sum lhs rhs p q

/-- The bias laid out as one row and then along all rows, at (p, q): bias q. -/
private theorem bias_apply (v : FVec Ideal S4096 .f32) (p : Fin 8192) (q : Fin 4096) :
    broadcastInDim S8192x4096 ![0, 1] bcast_S1x4096_S8192x4096_0_1
        (broadcastInDim S1x4096 ![1] bcast_S4096_S1x4096_1 v : FVec Ideal S1x4096 .f32) (ix2 p q) = v (ix1 q) := by
  rw [broadcastInDim_apply (![0, 1]) bcast_S1x4096_S8192x4096_0_1 _ (ix2 p q) (ix2 (0 : Fin 1) q)
      (fun a => match a with | ⟨0, _⟩ => rfl | ⟨1, _⟩ => rfl)]
  exact broadcastInDim_apply (![1]) bcast_S4096_S1x4096_1 v (ix2 (0 : Fin 1) q) (ix1 q)
      (fun a => match a with | ⟨0, _⟩ => rfl)

/-- Entry (b, g, j) of the regrouped pre-activations. -/
theorem v6_apply (b : Fin 8192) (g : Fin 4) (j : Fin 1024) :
    a6 V (ix3 b g j)
      = Spec.gate g (Spec.lin (fun i => aX V (ix2 b i)) (fun i => aH V (ix2 b i)) (fun a i => aWih V (ix2 a i))
          (fun a i => aWhh V (ix2 a i)) (fun a => aB V (ix1 a))) j := by
  have e0 : (W V main_v0 : FVec Ideal S8192x4096 .f32)
      = Host.dotGeneral (F := Ideal) dot_S8192x1024_S4096x1024_S8192x4096_1_1_0_0_n_n none
          (W V main_arg0 : FVec Ideal S8192x1024 .f32) (W V main_arg3 : FVec Ideal S4096x1024 .f32) := st_binary V 0 rfl
  have e1 : (W V main_v1 : FVec Ideal S1x4096 .f32)
      = broadcastInDim S1x4096 ![1] bcast_S4096_S1x4096_1 (W V main_arg4 : FVec Ideal S4096 .f32) := st_unary V 1 rfl
  have e2 : (W V main_v2 : FVec Ideal S8192x4096 .f32)
      = broadcastInDim S8192x4096 ![0, 1] bcast_S1x4096_S8192x4096_0_1 (W V main_v1 : FVec Ideal S1x4096 .f32) := st_unary V 2 rfl
  have e3 : (W V main_v3 : FVec Ideal S8192x4096 .f32)
      = addf (F := Ideal) (s := S8192x4096) (φ := .f32) (W V main_v0) (W V main_v2) := st_binary V 3 rfl
  have e4 : (W V main_v4 : FVec Ideal S8192x4096 .f32)
      = Host.dotGeneral (F := Ideal) dot_S8192x1024_S4096x1024_S8192x4096_1_1_0_0_n_n none
          (W V main_arg1 : FVec Ideal S8192x1024 .f32) (W V main_arg5 : FVec Ideal S4096x1024 .f32) := st_binary V 4 rfl
  have e5 : (W V main_v5 : FVec Ideal S8192x4096 .f32)
      = addf (F := Ideal) (s := S8192x4096) (φ := .f32) (W V main_v3) (W V main_v4) := st_binary V 5 rfl
  have e6 : (W V main_v6 : FVec Ideal S8192x4x1024 .f32)
      = shapeCast S8192x4x1024 (W V main_v5 : FVec Ideal S8192x4096 .f32) shapeCasts_S8192x4096_S8192x4x1024 := st_reshape V 6 rfl
  have hk : (S8192x4096.rowMajor (ix2 b (⟨g.val * 1024 + j.val, by omega⟩ : Fin 4096))).val
      = (S8192x4x1024.rowMajor (ix3 b g j)).val := by
    rw [Shape.rowMajor_val_two, Shape.rowMajor_val_three]
    show b.val * 4096 + (g.val * 1024 + j.val) = (b.val * 4 + g.val) * 1024 + j.val
    omega
  show (W V main_v6 : FVec Ideal S8192x4x1024 .f32) (ix3 b g j) = _
  rw [e6, shapeCast_apply _ _ _ _ hk, e5, addf_apply, e3, addf_apply, e2, e1, bias_apply, e0, e4, dot_rows_apply, dot_rows_apply,
    W_arg0, W_arg1, W_arg3, W_arg4, W_arg5]
  exact add_right_comm (G := EReal) _ _ _

end Cert.ReferenceIdeal.Read

end
-- ==== Proof.Consts.lean ====
/-
  The float literals of the two programs as the extended reals they denote, and the two scalar facts the reference's
  variance function needs: its divisor, computed as 1024 minus the integer 1 converted, is 1023, and 1023 is greater
  than zero, so its closing select keeps the quotient.
-/
import Idealize.ShloMosaic.PureOps.Ideal
import Idealize.ShloMosaic.PureOps.Ideal.Laws

noncomputable section

namespace Cert.Consts

open Idealize.ShloMosaic

theorem ofBits_1024 : Ideal.ofBits .f32 0x44800000#32 = ((1024 : ℝ) : EReal) := by
  simp [Ideal.ofBits, Ideal.ieee, -EReal.coe_mul]; norm_num

theorem ofBits_1023 : Ideal.ofBits .f32 0x447FC000#32 = ((1023 : ℝ) : EReal) := by
  simp [Ideal.ofBits, Ideal.ieee, -EReal.coe_mul]; norm_num

/-- The variance's divisor as the reference computes it: 1024 − 1 is the literal 1023. -/
theorem divisor_eq :
    Ideal.ofBits .f32 0x44800000#32 - (((1#32 : BitVec 32).toInt : ℝ) : EReal) = Ideal.ofBits .f32 0x447FC000#32 := by
  rw [ofBits_1024, ofBits_1023, ← EReal.coe_sub]
  norm_num

/-- 1023 > 0: the comparison's bit is set. -/
theorem divisor_pos : Ideal.cmp .ogt (Ideal.ofBits .f32 0x447FC000#32) (Ideal.ofBits .f32 0x00000000#32) = 1#1 := by
  rw [ofBits_1023, Ideal.ofBits_zero_f32]
  simp [Ideal.cmp]

end Cert.Consts

end
-- ==== Proof.RefGateNorm.lean ====
/-
  The reference's layer norm of the four gates at an index.

  From the regrouped pre-activations `main_v6` ([8192, 4, 1024]) to `main_v23`: the mean along the last axis, the
  standard deviation through the variance function (its divisor 1024 − 1, its closing select on 1023 > 0), the scale and
  shift rows of gate g. If entry (b, g, j) of `main_v6` is `u b g j`, entry (b, g, j) of `main_v23` is the row layer norm
  `Spec.ln` of the row `u b g` with row g of the scales and shifts.
-/
import proofs.«166081_j78262894067860_1_alg».proof.Proof.RefArr
import proofs.«166081_j78262894067860_1_alg».proof.Proof.Spec
import proofs.«166081_j78262894067860_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Read

open Cert.ReferenceIdeal Cert.ReferenceIdeal.Gen Cert.ReferenceIdeal.Line Idealize.ShloMosaic Idealize.ShloMosaic.TcCoe Idealize.ShloMosaic.StableHlo Idealize.ShloMosaic.ValueIdx
open scoped BigOperators

variable (V : Valuation τ sig (Elt Ideal))

/-! Operations 7 … 50 of the line, each as an equation between the arrays the line ends at. -/

private abbrev A3 := FVec Ideal S8192x4x1024 .f32
private abbrev A31 := FVec Ideal S8192x4x1 .f32
private abbrev A2 := FVec Ideal S8192x4 .f32
private abbrev A0 := FVec Ideal S_ .f32
private abbrev A14 := FVec Ideal S1x4x1024 .f32

private theorem s7 : (W V main_cst : A0) = constant (F := Ideal) S_ .f32 0x00000000#32 := st_nullary V 7 rfl
private theorem s8 : (W V main_v7 : A2) = Host.reduceAdd (F := Ideal) (φ := .f32) (W V main_v6 : A3) (W V main_cst : A0) reducesTo_S8192x4x1024_S8192x4_d2 h_S_ := st_binary V 8 rfl
private theorem s9 : (W V main_v8 : A31) = broadcastInDim S8192x4x1 ![0, 1] bcast_S8192x4_S8192x4x1_0_1 (W V main_v7 : A2) := st_unary V 9 rfl
private theorem s10 : (W V main_cst_0 : A0) = constant (F := Ideal) S_ .f32 0x44800000#32 := st_nullary V 10 rfl
private theorem s11 : (W V main_v9 : A31) = broadcastInDim S8192x4x1 ![] bcast_S_S8192x4x1 (W V main_cst_0 : A0) := st_unary V 11 rfl
private theorem s12 : (W V main_v10 : A31) = Host.divf (F := Ideal) (s := S8192x4x1) (φ := .f32) (W V main_v8) (W V main_v9) := st_binary V 12 rfl
private theorem s13 : (W V main_c : IVec S_ 32) = constantI S_ 32 1#32 := st_nullary V 13 rfl
private theorem s14 : (W V main_call0_call0_cst : A0) = constant (F := Ideal) S_ .f32 0x00000000#32 := st_nullary V 14 rfl
private theorem s15 : (W V main_call0_call0_v0 : A2) = Host.reduceAdd (F := Ideal) (φ := .f32) (W V main_v6 : A3) (W V main_call0_call0_cst : A0) reducesTo_S8192x4x1024_S8192x4_d2 h_S_ := st_binary V 15 rfl
private theorem s16 : (W V main_call0_call0_v1 : A31) = broadcastInDim S8192x4x1 ![0, 1] bcast_S8192x4_S8192x4x1_0_1 (W V main_call0_call0_v0 : A2) := st_unary V 16 rfl
private theorem s17 : (W V main_call0_call0_cst_0 : A0) = constant (F := Ideal) S_ .f32 0x44800000#32 := st_nullary V 17 rfl
private theorem s18 : (W V main_call0_call0_v2 : A31) = broadcastInDim S8192x4x1 ![] bcast_S_S8192x4x1 (W V main_call0_call0_cst_0 : A0) := st_unary V 18 rfl
private theorem s19 : (W V main_call0_call0_v3 : A31) = Host.divf (F := Ideal) (s := S8192x4x1) (φ := .f32) (W V main_call0_call0_v1) (W V main_call0_call0_v2) := st_binary V 19 rfl
private theorem s20 : (W V main_call0_call0_v4 : A3) = broadcastInDim S8192x4x1024 ![0, 1, 2] bcast_S8192x4x1_S8192x4x1024_0_1_2 (W V main_call0_call0_v3 : A31) := st_unary V 20 rfl
private theorem s21 : (W V main_call0_call0_v5 : A3) = subf (F := Ideal) (s := S8192x4x1024) (φ := .f32) (W V main_v6) (W V main_call0_call0_v4) := st_binary V 21 rfl
private theorem s22 : (W V main_call0_call0_v6 : A3) = mulf (F := Ideal) (s := S8192x4x1024) (φ := .f32) (W V main_call0_call0_v5) (W V main_call0_call0_v5) := st_binary V 22 rfl
private theorem s23 : (W V main_call0_call0_v7 : A0) = sitofp (F := Ideal) .f32 (W V main_c : IVec S_ 32) := st_unary V 23 rfl
private theorem s24 : (W V main_call0_call0_cst_1 : A0) = constant (F := Ideal) S_ .f32 0x44800000#32 := st_nullary V 24 rfl
private theorem s25 : (W V main_call0_call0_v8 : A0) = subf (F := Ideal) (s := S_) (φ := .f32) (W V main_call0_call0_cst_1) (W V main_call0_call0_v7) := st_binary V 25 rfl
private theorem s26 : (W V main_call0_call0_cst_2 : A0) = constant (F := Ideal) S_ .f32 0x00000000#32 := st_nullary V 26 rfl
private theorem s27 : (W V main_call0_call0_v9 : A2) = Host.reduceAdd (F := Ideal) (φ := .f32) (W V main_call0_call0_v6 : A3) (W V main_call0_call0_cst_2 : A0) reducesTo_S8192x4x1024_S8192x4_d2 h_S_ := st_binary V 27 rfl
private theorem s28 : (W V main_call0_call0_v10 : A31) = broadcastInDim S8192x4x1 ![0, 1] bcast_S8192x4_S8192x4x1_0_1 (W V main_call0_call0_v9 : A2) := st_unary V 28 rfl
private theorem s29 : (W V main_call0_call0_v11 : A31) = broadcastInDim S8192x4x1 ![] bcast_S_S8192x4x1 (W V main_call0_call0_v8 : A0) := st_unary V 29 rfl
private theorem s30 : (W V main_call0_call0_v12 : A31) = Host.divf (F := Ideal) (s := S8192x4x1) (φ := .f32) (W V main_call0_call0_v10) (W V main_call0_call0_v11) := st_binary V 30 rfl
private theorem s31 : (W V main_call0_call0_cst_3 : A0) = constant (F := Ideal) S_ .f32 0x00000000#32 := st_nullary V 31 rfl
private theorem s32 : (W V main_call0_call0_v13 : IVec S_ 1) = cmpf (F := Ideal) (φ := .f32) (s := S_) .ogt (W V main_call0_call0_v8) (W V main_call0_call0_cst_3) := st_binary V 32 rfl
private theorem s33 : (W V main_call0_call0_cst_4 : A0) = constant (F := Ideal) S_ .f32 0x7FC00000#32 := st_nullary V 33 rfl
private theorem s34 : (W V main_call0_call0_call0_v0 : A0) = (W V main_call0_call0_cst_4 : A0) := st_unary V 34 rfl
private theorem s35 : (W V main_call0_call0_call0_v1 : A31) = broadcastInDim S8192x4x1 ![] bcast_S_S8192x4x1 (W V main_call0_call0_call0_v0 : A0) := st_unary V 35 rfl
private theorem s36 : (W V main_call0_v0 : A31) = select (broadcastInDim S8192x4x1 ![] bcast_S_S8192x4x1 (W V main_call0_call0_v13 : IVec S_ 1)) (W V main_call0_call0_v12 : A31) (W V main_call0_call0_call0_v1 : A31) := st_ternary V 36 rfl
private theorem s37 : (W V main_v11 : A31) = Host.sqrt (F := Ideal) (s := S8192x4x1) (φ := .f32) (W V main_call0_v0) := st_unary V 37 rfl
private theorem s38 : (W V main_v12 : A3) = broadcastInDim S8192x4x1024 ![0, 1, 2] bcast_S8192x4x1_S8192x4x1024_0_1_2 (W V main_v10 : A31) := st_unary V 38 rfl
private theorem s39 : (W V main_v13 : A3) = subf (F := Ideal) (s := S8192x4x1024) (φ := .f32) (W V main_v6) (W V main_v12) := st_binary V 39 rfl
private theorem s40 : (W V main_v14 : A14) = broadcastInDim S1x4x1024 ![1, 2] bcast_S4x1024_S1x4x1024_1_2 (W V main_arg6 : FVec Ideal S4x1024 .f32) := st_unary V 40 rfl
private theorem s41 : (W V main_v15 : A3) = broadcastInDim S8192x4x1024 ![0, 1, 2] bcast_S1x4x1024_S8192x4x1024_0_1_2 (W V main_v14 : A14) := st_unary V 41 rfl
private theorem s42 : (W V main_v16 : A3) = mulf (F := Ideal) (s := S8192x4x1024) (φ := .f32) (W V main_v15) (W V main_v13) := st_binary V 42 rfl
private theorem s43 : (W V main_cst_1 : A0) = constant (F := Ideal) S_ .f32 0x358637BD#32 := st_nullary V 43 rfl
private theorem s44 : (W V main_v17 : A31) = broadcastInDim S8192x4x1 ![] bcast_S_S8192x4x1 (W V main_cst_1 : A0) := st_unary V 44 rfl
private theorem s45 : (W V main_v18 : A31) = addf (F := Ideal) (s := S8192x4x1) (φ := .f32) (W V main_v11) (W V main_v17) := st_binary V 45 rfl
private theorem s46 : (W V main_v19 : A3) = broadcastInDim S8192x4x1024 ![0, 1, 2] bcast_S8192x4x1_S8192x4x1024_0_1_2 (W V main_v18 : A31) := st_unary V 46 rfl
private theorem s47 : (W V main_v20 : A3) = Host.divf (F := Ideal) (s := S8192x4x1024) (φ := .f32) (W V main_v16) (W V main_v19) := st_binary V 47 rfl
private theorem s48 : (W V main_v21 : A14) = broadcastInDim S1x4x1024 ![1, 2] bcast_S4x1024_S1x4x1024_1_2 (W V main_arg7 : FVec Ideal S4x1024 .f32) := st_unary V 48 rfl
private theorem s49 : (W V main_v22 : A3) = broadcastInDim S8192x4x1024 ![0, 1, 2] bcast_S1x4x1024_S8192x4x1024_0_1_2 (W V main_v21 : A14) := st_unary V 49 rfl
private theorem s50 : (W V main_v23 : A3) = addf (F := Ideal) (s := S8192x4x1024) (φ := .f32) (W V main_v20) (W V main_v22) := st_binary V 50 rfl

/-! A sum over the last axis, and the broadcasts, at an index. -/

/-- The sum over the last axis from the constant 0, at (b, g): the sum of the 1024 entries (b, g, k). -/
private theorem sum3 (x : A3) (z : A0) (hz : z = constant (F := Ideal) S_ .f32 0x00000000#32) (b : Fin 8192) (g : Fin 4) :
    Host.reduceAdd (F := Ideal) (φ := .f32) x z reducesTo_S8192x4x1024_S8192x4_d2 h_S_ (ix2 b g) = ∑ k : Fin 1024, x (ix3 b g k) := by
  subst hz
  have h : S8192x4x1024.Reduces [2] S8192x4 := by decide
  refine (hostReduceAdd_apply x _ reducesTo_S8192x4x1024_S8192x4_d2 h_S_ (ix2 b g)).trans ?_
  refine (Ideal.hostReduceAdd_single reducesTo_S8192x4x1024_S8192x4_d2 h x _ (ix2 b g)).trans ?_
  rw [constant_apply, Ideal.ofBits_zero_f32, zero_add]
  refine Finset.sum_congr rfl fun k _ => congrArg x ?_
  funext c
  refine Fin.ext ?_
  match c with
  | ⟨0, _⟩ => rfl
  | ⟨1, _⟩ => rfl
  | ⟨2, _⟩ => rfl

/-- [8192, 4] laid out as [8192, 4, 1]: entry (b, g, 0) is entry (b, g). -/
private theorem bc2 {α : Type} (x : S8192x4.Idx → α) (b : Fin 8192) (g : Fin 4) (z : Fin 1) :
    broadcastInDim S8192x4x1 ![0, 1] bcast_S8192x4_S8192x4x1_0_1 x (ix3 b g z) = x (ix2 b g) :=
  broadcastInDim_apply _ _ x _ (ix2 b g) fun a => match a with
    | ⟨0, _⟩ => rfl
    | ⟨1, _⟩ => rfl

/-- [8192, 4, 1] repeated along the last axis: entry (b, g, j) is entry (b, g, 0). -/
private theorem bc31 {α : Type} (x : S8192x4x1.Idx → α) (b : Fin 8192) (g : Fin 4) (j : Fin 1024) :
    broadcastInDim S8192x4x1024 ![0, 1, 2] bcast_S8192x4x1_S8192x4x1024_0_1_2 x (ix3 b g j) = x (ix3 b g (0 : Fin 1)) :=
  broadcastInDim_apply _ _ x _ (ix3 b g (0 : Fin 1)) fun a => match a with
    | ⟨0, _⟩ => rfl
    | ⟨1, _⟩ => rfl
    | ⟨2, _⟩ => rfl

/-- A [4, 1024] table of rows laid out as [1, 4, 1024] and repeated over the batch: entry (b, g, j) is entry (g, j). -/
private theorem bcRows {α : Type} (x : S4x1024.Idx → α) (b : Fin 8192) (g : Fin 4) (j : Fin 1024) :
    broadcastInDim S8192x4x1024 ![0, 1, 2] bcast_S1x4x1024_S8192x4x1024_0_1_2
      (broadcastInDim S1x4x1024 ![1, 2] bcast_S4x1024_S1x4x1024_1_2 x) (ix3 b g j) = x (ix2 g j) := by
  refine (broadcastInDim_apply _ _ _ _ (ix3 (0 : Fin 1) g j) fun a => match a with
    | ⟨0, _⟩ => rfl
    | ⟨1, _⟩ => rfl
    | ⟨2, _⟩ => rfl).trans ?_
  exact broadcastInDim_apply _ _ x _ (ix2 g j) fun a => match a with
    | ⟨0, _⟩ => rfl
    | ⟨1, _⟩ => rfl

/-! Entries of the stretch's arrays as functions of the row `u b g`: the divisor 1023, the two means, the deviations, the
    variance, the standard deviation. -/

/-- The divisor the variance function computes, 1024 minus the integer 1 converted: 1023. -/
private theorem divisor_apply : (W V main_call0_call0_v8 : A0) ix0 = Spec.n1023 := by
  refine (congrFun (s25 V) _).trans ?_
  refine (subf_apply _ _ _).trans ?_
  rw [s24 V, constant_apply, s23 V, sitofp_apply, s13 V]
  exact Consts.divisor_eq

section
variable (u : Fin 8192 → Fin 4 → Fin 1024 → EReal) (hu : ∀ b g j, a6 V (ix3 b g j) = u b g j)
include hu

/-- The sum of a row of `main_v6`, from either of the two zero constants. -/
private theorem rowSum (z : A0) (hz : z = constant (F := Ideal) S_ .f32 0x00000000#32) (b : Fin 8192) (g : Fin 4) :
    Host.reduceAdd (F := Ideal) (φ := .f32) (W V main_v6 : A3) z reducesTo_S8192x4x1024_S8192x4_d2 h_S_ (ix2 b g) = ∑ k, u b g k :=
  (sum3 (W V main_v6) z hz b g).trans (Finset.sum_congr rfl fun k _ => hu b g k)

/-- The first mean, at (b, g, 0). -/
private theorem mean_apply (b : Fin 8192) (g : Fin 4) : (W V main_v10 : A31) (ix3 b g (0 : Fin 1)) = Spec.mean (u b g) := by
  refine (congrFun (s12 V) _).trans ?_
  refine (hostDivf_apply _ _ _).trans ?_
  rw [s9 V, bc2, s8 V, rowSum V u hu _ (s7 V), s11 V, broadcastInDim_scalar_apply, s10 V, constant_apply]
  rfl

/-- The variance function's own mean, at (b, g, 0): the same. -/
private theorem mean'_apply (b : Fin 8192) (g : Fin 4) : (W V main_call0_call0_v3 : A31) (ix3 b g (0 : Fin 1)) = Spec.mean (u b g) := by
  refine (congrFun (s19 V) _).trans ?_
  refine (hostDivf_apply _ _ _).trans ?_
  rw [s16 V, bc2, s15 V, rowSum V u hu _ (s14 V), s18 V, broadcastInDim_scalar_apply, s17 V, constant_apply]
  rfl

/-- The deviations inside the variance function, at (b, g, j). -/
private theorem dev'_apply (b : Fin 8192) (g : Fin 4) (j : Fin 1024) :
    (W V main_call0_call0_v5 : A3) (ix3 b g j) = Spec.dev (u b g) j := by
  refine (congrFun (s21 V) _).trans ?_
  refine (subf_apply _ _ _).trans ?_
  rw [s20 V, bc31, mean'_apply V u hu]
  exact congrArg (· - Spec.mean (u b g)) (hu b g j)

/-- The variance, at (b, g, 0): the closing select keeps the quotient, since 1023 > 0. -/
private theorem var_apply (b : Fin 8192) (g : Fin 4) :
    (W V main_call0_v0 : A31) (ix3 b g (0 : Fin 1)) = Ideal.div (∑ k, Spec.dev (u b g) k * Spec.dev (u b g) k) Spec.n1023 := by
  refine (congrFun (s36 V) _).trans ?_
  refine (select_apply _ _ _ _).trans ?_
  have hc : broadcastInDim S8192x4x1 ![] bcast_S_S8192x4x1 (W V main_call0_call0_v13 : IVec S_ 1) (ix3 b g (0 : Fin 1)) = 1#1 := by
    rw [broadcastInDim_scalar_apply, s32 V, cmpf_apply, divisor_apply V, s31 V, constant_apply]
    exact Consts.divisor_pos
  rw [hc, select_one]
  refine (congrFun (s30 V) _).trans ?_
  refine (hostDivf_apply _ _ _).trans ?_
  rw [s28 V, bc2, s27 V, sum3 _ _ (s26 V), s29 V, broadcastInDim_scalar_apply, divisor_apply V]
  refine congrArg (Ideal.div · Spec.n1023) (Finset.sum_congr rfl fun k _ => ?_)
  refine (congrFun (s22 V) _).trans ?_
  refine (mulf_apply _ _ _).trans ?_
  rw [dev'_apply V u hu]

/-- The standard deviation, at (b, g, 0). -/
private theorem std_apply (b : Fin 8192) (g : Fin 4) : (W V main_v11 : A31) (ix3 b g (0 : Fin 1)) = Spec.std (u b g) := by
  refine (congrFun (s37 V) _).trans ?_
  show Ideal.sqrt ((W V main_call0_v0 : A31) (ix3 b g (0 : Fin 1))) = _
  rw [var_apply V u hu]
  rfl

/-- The deviations from the first mean, at (b, g, j). -/
private theorem dev_apply (b : Fin 8192) (g : Fin 4) (j : Fin 1024) : (W V main_v13 : A3) (ix3 b g j) = Spec.dev (u b g) j := by
  refine (congrFun (s39 V) _).trans ?_
  refine (subf_apply _ _ _).trans ?_
  rw [s38 V, bc31, mean_apply V u hu]
  exact congrArg (· - Spec.mean (u b g)) (hu b g j)

end

/-- The normalised gates at (b, g, j). -/
theorem v23_apply (u : Fin 8192 → Fin 4 → Fin 1024 → EReal) (hu : ∀ b g j, a6 V (ix3 b g j) = u b g j)
    (b : Fin 8192) (g : Fin 4) (j : Fin 1024) :
    a23 V (ix3 b g j) = Spec.ln (fun i => aGm V (ix2 g i)) (fun i => aBt V (ix2 g i)) (u b g) j := by
  refine (congrFun (s50 V) _).trans ?_
  refine (addf_apply _ _ _).trans ?_
  rw [s49 V, s48 V, bcRows, W_arg7 V]
  refine congrArg (· + aBt V (ix2 g j)) ?_
  refine (congrFun (s47 V) _).trans ?_
  refine (hostDivf_apply _ _ _).trans ?_
  rw [s46 V, bc31]
  have h18 : (W V main_v18 : A31) (ix3 b g (0 : Fin 1)) = Spec.std (u b g) + Spec.eps := by
    refine (congrFun (s45 V) _).trans ?_
    refine (addf_apply _ _ _).trans ?_
    rw [std_apply V u hu, s44 V, broadcastInDim_scalar_apply, s43 V, constant_apply]
    rfl
  rw [h18]
  refine congrArg (Ideal.div · (Spec.std (u b g) + Spec.eps)) ?_
  refine (congrFun (s42 V) _).trans ?_
  refine (mulf_apply _ _ _).trans ?_
  rw [dev_apply V u hu, s41 V, s40 V, bcRows, W_arg6 V]

end Cert.ReferenceIdeal.Read

end
-- ==== Proof.RefCell.lean ====
/-
  The reference's gating at an index.

  The four normalised gates are cut out of `main_v23` ([8192, 4, 1024]) as [8192, 1024] arrays; each logistic is spelt
  as 1 / (1 + exp (−·)), which over the extended reals is the logistic function. If entry (b, g, j) of `main_v23` is
  `n b g j`, entry (b, j) of `main_v49` is c · σ(f + 1) + σ(i) · tanh(g) and entry (b, j) of `main_v73` is σ(o).
-/
import proofs.«166081_j78262894067860_1_alg».proof.Proof.RefArr
import proofs.«166081_j78262894067860_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Line Idealize.ShloMosaic Idealize.ShloMosaic.TcCoe Idealize.ShloMosaic.StableHlo Idealize.ShloMosaic.ValueIdx
open scoped BigOperators

variable (V : Valuation τ sig (Elt Ideal))

/-- The word 0x3F800000 encodes the real number one. -/
private theorem one_word : Ideal.ofBits .f32 0x3F800000#32 = (1 : EReal) := by
  simp [Ideal.ofBits, Ideal.ieee, -EReal.coe_mul]; norm_num

/-- The quotient 1 / (1 + exp (−x)), both ones spelt as the word 0x3F800000, is the logistic function at x. -/
private theorem logistic_spelt (x : EReal) :
    Ideal.div (Ideal.ofBits .f32 0x3F800000#32) (Ideal.ofBits .f32 0x3F800000#32 + Ideal.exp (-x)) = Ideal.logistic x := by
  rw [one_word]; rfl

/-- The scalar constant one laid out over [8192, 1024] reads that word at every index. -/
private theorem ones_apply (c : FVec Ideal S_ .f32) (hc : c = constant (F := Ideal) S_ .f32 0x3F800000#32)
    (i : S8192x1024.Idx) :
    broadcastInDim S8192x1024 ![] bcast_S_S8192x1024 c i = Ideal.ofBits .f32 0x3F800000#32 := by
  subst hc
  exact broadcastInDim_apply (s := S_) (t := S8192x1024) ![] bcast_S_S8192x1024 _ i (fun a => a.elim0) (fun a => a.elim0)

/-- A logistic spelt in six operations (negate, exponential, a one laid out, sum, another one laid out, quotient)
    reads at every index the logistic function of its operand's entry there. -/
private theorem logistic_stage (x ng ex o₁ sm o₂ q : FVec Ideal S8192x1024 .f32) (c₁ c₂ : FVec Ideal S_ .f32)
    (hng : ng = Host.negf (F := Ideal) (s := S8192x1024) (φ := .f32) x)
    (hex : ex = Host.exp (F := Ideal) (s := S8192x1024) (φ := .f32) ng)
    (hc₁ : c₁ = constant (F := Ideal) S_ .f32 0x3F800000#32)
    (ho₁ : o₁ = broadcastInDim S8192x1024 ![] bcast_S_S8192x1024 c₁)
    (hsm : sm = addf (F := Ideal) (s := S8192x1024) (φ := .f32) o₁ ex)
    (hc₂ : c₂ = constant (F := Ideal) S_ .f32 0x3F800000#32)
    (ho₂ : o₂ = broadcastInDim S8192x1024 ![] bcast_S_S8192x1024 c₂)
    (hq : q = Host.divf (F := Ideal) (s := S8192x1024) (φ := .f32) o₂ sm)
    (i : S8192x1024.Idx) : q i = Ideal.logistic (x i) := by
  have h₁ : o₁ i = Ideal.ofBits .f32 0x3F800000#32 := by rw [ho₁]; exact ones_apply c₁ hc₁ i
  have h₂ : o₂ i = Ideal.ofBits .f32 0x3F800000#32 := by rw [ho₂]; exact ones_apply c₂ hc₂ i
  have hs : sm i = Ideal.ofBits .f32 0x3F800000#32 + Ideal.exp (-(x i)) := by
    rw [hsm, addf_apply, h₁, hex, hng]; rfl
  have hq' : q i = Ideal.div (o₂ i) (sm i) := by rw [hq]; rfl
  rw [hq', h₂, hs]
  exact logistic_spelt (x i)

/-- Gate g of a [8192, 4, 1024] array, cut out along the middle axis and laid out as [8192, 1024], reads at (b, j)
    the array at (b, g, j): row-major position b · 1024 + j of the cut is its entry (b, 0, j). -/
private theorem gate_read (X : FVec Ideal S8192x4x1024 .f32) (o : ℕ) (h : S8192x4x1024.Slices ![0, o, 0] S8192x1x1024)
    (hc : S8192x1x1024.ShapeCasts S8192x1024) (g : Fin 4) (hg : g.val = o) (b : Fin 8192) (j : Fin 1024) :
    shapeCast S8192x1024 (extractStridedSlice S8192x1x1024 ![0, o, 0] X h) hc (ix2 b j) = X (ix3 b g j) := by
  refine (shapeCast_apply _ hc (ix2 b j) (ix3 b (0 : Fin 1) j) ?_).trans ?_
  · rw [Shape.rowMajor_val_two, Shape.rowMajor_val_three]
    show (b.val * 1 + 0) * 1024 + j.val = b.val * 1024 + j.val
    omega
  · exact slice3_axis1_apply o X h b (0 : Fin 1) j g (by simpa using hg)

section Gates

variable (n : Fin 8192 → Fin 4 → Fin 1024 → EReal) (hn : ∀ b g j, a23 V (ix3 b g j) = n b g j)
include hn

/-- The input gate's array at (b, j). -/
private theorem v25_apply (b : Fin 8192) (j : Fin 1024) : (W V main_v25 : FVec Ideal S8192x1024 .f32) (ix2 b j) = n b 0 j := by
  have e24 : (W V main_v24 : FVec Ideal S8192x1x1024 .f32) = extractStridedSlice S8192x1x1024 ![0, 0, 0] (W V main_v23 : FVec Ideal S8192x4x1024 .f32) slices_S8192x4x1024_S8192x1x1024_0_0_0 := st_unary V 51 rfl
  have e25 : (W V main_v25 : FVec Ideal S8192x1024 .f32) = shapeCast S8192x1024 (W V main_v24 : FVec Ideal S8192x1x1024 .f32) shapeCasts_S8192x1x1024_S8192x1024 := st_reshape V 52 rfl
  rw [e25, e24]
  exact (gate_read _ 0 _ _ 0 rfl b j).trans (hn b 0 j)

/-- The forget gate's array at (b, j). -/
private theorem v27_apply (b : Fin 8192) (j : Fin 1024) : (W V main_v27 : FVec Ideal S8192x1024 .f32) (ix2 b j) = n b 1 j := by
  have e26 : (W V main_v26 : FVec Ideal S8192x1x1024 .f32) = extractStridedSlice S8192x1x1024 ![0, 1, 0] (W V main_v23 : FVec Ideal S8192x4x1024 .f32) slices_S8192x4x1024_S8192x1x1024_0_1_0 := st_unary V 53 rfl
  have e27 : (W V main_v27 : FVec Ideal S8192x1024 .f32) = shapeCast S8192x1024 (W V main_v26 : FVec Ideal S8192x1x1024 .f32) shapeCasts_S8192x1x1024_S8192x1024 := st_reshape V 54 rfl
  rw [e27, e26]
  exact (gate_read _ 1 _ _ 1 rfl b j).trans (hn b 1 j)

/-- The candidate's array at (b, j). -/
private theorem v29_apply (b : Fin 8192) (j : Fin 1024) : (W V main_v29 : FVec Ideal S8192x1024 .f32) (ix2 b j) = n b 2 j := by
  have e28 : (W V main_v28 : FVec Ideal S8192x1x1024 .f32) = extractStridedSlice S8192x1x1024 ![0, 2, 0] (W V main_v23 : FVec Ideal S8192x4x1024 .f32) slices_S8192x4x1024_S8192x1x1024_0_2_0 := st_unary V 55 rfl
  have e29 : (W V main_v29 : FVec Ideal S8192x1024 .f32) = shapeCast S8192x1024 (W V main_v28 : FVec Ideal S8192x1x1024 .f32) shapeCasts_S8192x1x1024_S8192x1024 := st_reshape V 56 rfl
  rw [e29, e28]
  exact (gate_read _ 2 _ _ 2 rfl b j).trans (hn b 2 j)

/-- The output gate's array at (b, j). -/
private theorem v31_apply (b : Fin 8192) (j : Fin 1024) : (W V main_v31 : FVec Ideal S8192x1024 .f32) (ix2 b j) = n b 3 j := by
  have e30 : (W V main_v30 : FVec Ideal S8192x1x1024 .f32) = extractStridedSlice S8192x1x1024 ![0, 3, 0] (W V main_v23 : FVec Ideal S8192x4x1024 .f32) slices_S8192x4x1024_S8192x1x1024_0_3_0 := st_unary V 57 rfl
  have e31 : (W V main_v31 : FVec Ideal S8192x1024 .f32) = shapeCast S8192x1024 (W V main_v30 : FVec Ideal S8192x1x1024 .f32) shapeCasts_S8192x1x1024_S8192x1024 := st_reshape V 58 rfl
  rw [e31, e30]
  exact (gate_read _ 3 _ _ 3 rfl b j).trans (hn b 3 j)

end Gates

/-- The forget gate plus one, at (b, j): the one stays the word the program spells. -/
private theorem v33_apply (n : Fin 8192 → Fin 4 → Fin 1024 → EReal) (hn : ∀ b g j, a23 V (ix3 b g j) = n b g j)
    (b : Fin 8192) (j : Fin 1024) : (W V main_v33 : FVec Ideal S8192x1024 .f32) (ix2 b j) = n b 1 j + Spec.one := by
  have ec : (W V main_cst_2 : FVec Ideal S_ .f32) = constant (F := Ideal) S_ .f32 0x3F800000#32 := st_nullary V 59 rfl
  have e32 : (W V main_v32 : FVec Ideal S8192x1024 .f32) = broadcastInDim S8192x1024 ![] bcast_S_S8192x1024 (W V main_cst_2 : FVec Ideal S_ .f32) := st_unary V 60 rfl
  have e33 : (W V main_v33 : FVec Ideal S8192x1024 .f32) = addf (F := Ideal) (s := S8192x1024) (φ := .f32) (W V main_v27) (W V main_v32) := st_binary V 61 rfl
  rw [e33, addf_apply, v27_apply V n hn b j, e32, ones_apply _ ec]
  rfl

/-- The forget gate's logistic σ(f + 1) at (b, j). -/
private theorem v39_apply (n : Fin 8192 → Fin 4 → Fin 1024 → EReal) (hn : ∀ b g j, a23 V (ix3 b g j) = n b g j)
    (b : Fin 8192) (j : Fin 1024) :
    (W V main_v39 : FVec Ideal S8192x1024 .f32) (ix2 b j) = Ideal.logistic (n b 1 j + Spec.one) := by
  have h := logistic_stage (W V main_v33) (W V main_v34) (W V main_v35) (W V main_v36) (W V main_v37) (W V main_v38)
    (W V main_v39) (W V main_cst_3) (W V main_cst_4)
    (st_unary V 62 rfl) (st_unary V 63 rfl) (st_nullary V 64 rfl) (st_unary V 65 rfl) (st_binary V 66 rfl)
    (st_nullary V 67 rfl) (st_unary V 68 rfl) (st_binary V 69 rfl) (ix2 b j)
  rw [h, v33_apply V n hn b j]

/-- The input gate's logistic σ(i) at (b, j). -/
private theorem v46_apply (n : Fin 8192 → Fin 4 → Fin 1024 → EReal) (hn : ∀ b g j, a23 V (ix3 b g j) = n b g j)
    (b : Fin 8192) (j : Fin 1024) :
    (W V main_v46 : FVec Ideal S8192x1024 .f32) (ix2 b j) = Ideal.logistic (n b 0 j) := by
  have h := logistic_stage (W V main_v25) (W V main_v41) (W V main_v42) (W V main_v43) (W V main_v44) (W V main_v45)
    (W V main_v46) (W V main_cst_5) (W V main_cst_6)
    (st_unary V 71 rfl) (st_unary V 72 rfl) (st_nullary V 73 rfl) (st_unary V 74 rfl) (st_binary V 75 rfl)
    (st_nullary V 76 rfl) (st_unary V 77 rfl) (st_binary V 78 rfl) (ix2 b j)
  rw [h, v25_apply V n hn b j]

/-- The cell row before its layer norm, at (b, j). -/
theorem v49_apply (n : Fin 8192 → Fin 4 → Fin 1024 → EReal) (hn : ∀ b g j, a23 V (ix3 b g j) = n b g j)
    (b : Fin 8192) (j : Fin 1024) :
    a49 V (ix2 b j)
      = aC V (ix2 b j) * Ideal.logistic (n b 1 j + Spec.one) + Ideal.logistic (n b 0 j) * Ideal.tanh (n b 2 j) := by
  have e40 : (W V main_v40 : FVec Ideal S8192x1024 .f32) = mulf (F := Ideal) (s := S8192x1024) (φ := .f32) (W V main_arg2) (W V main_v39) := st_binary V 70 rfl
  have e47 : (W V main_v47 : FVec Ideal S8192x1024 .f32) = Host.tanh (F := Ideal) (s := S8192x1024) (φ := .f32) (W V main_v29) := st_unary V 79 rfl
  have e48 : (W V main_v48 : FVec Ideal S8192x1024 .f32) = mulf (F := Ideal) (s := S8192x1024) (φ := .f32) (W V main_v46) (W V main_v47) := st_binary V 80 rfl
  have e49 : (W V main_v49 : FVec Ideal S8192x1024 .f32) = addf (F := Ideal) (s := S8192x1024) (φ := .f32) (W V main_v40) (W V main_v48) := st_binary V 81 rfl
  have h47 : (W V main_v47 : FVec Ideal S8192x1024 .f32) (ix2 b j) = Ideal.tanh (n b 2 j) := by
    rw [e47, ← v29_apply V n hn b j]; rfl
  show (W V main_v49 : FVec Ideal S8192x1024 .f32) (ix2 b j) = _
  rw [e49, addf_apply, e40, mulf_apply, e48, mulf_apply, v39_apply V n hn b j, v46_apply V n hn b j, h47, W_arg2]

/-- The output gate's logistic at (b, j). -/
theorem v73_apply (n : Fin 8192 → Fin 4 → Fin 1024 → EReal) (hn : ∀ b g j, a23 V (ix3 b g j) = n b g j)
    (b : Fin 8192) (j : Fin 1024) : a73 V (ix2 b j) = Ideal.logistic (n b 3 j) := by
  have h := logistic_stage (W V main_v31) (W V main_v68) (W V main_v69) (W V main_v70) (W V main_v71) (W V main_v72)
    (W V main_v73) (W V main_cst_11) (W V main_cst_12)
    (st_unary V 127 rfl) (st_unary V 128 rfl) (st_nullary V 129 rfl) (st_unary V 130 rfl) (st_binary V 131 rfl)
    (st_nullary V 132 rfl) (st_unary V 133 rfl) (st_binary V 134 rfl) (ix2 b j)
  show (W V main_v73 : FVec Ideal S8192x1024 .f32) (ix2 b j) = _
  rw [h, v31_apply V n hn b j]

end Cert.ReferenceIdeal.Read

end
-- ==== Proof.RefCellNorm.lean ====
/-
  The reference's layer norm of the cell row, and the new hidden state, at an index.

  From `main_v49` ([8192, 1024]) to `main_v66`: the mean along the row, the standard deviation through the variance
  function (divisor 1024 − 1, closing select on 1023 > 0), the cell's scale and shift. If entry (b, j) of `main_v49` is
  `r b j`, entry (b, j) of `main_v66` is `Spec.ln` of the row `r b`; and `main_v74` is tanh of `main_v66` times `main_v73`.
-/
import proofs.«166081_j78262894067860_1_alg».proof.Proof.RefArr
import proofs.«166081_j78262894067860_1_alg».proof.Proof.Spec
import proofs.«166081_j78262894067860_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Line Idealize.ShloMosaic Idealize.ShloMosaic.TcCoe Idealize.ShloMosaic.StableHlo Idealize.ShloMosaic.ValueIdx
open scoped BigOperators

variable (V : Valuation τ sig (Elt Ideal))

/-! ## Layout readings at explicit coordinates -/

/-- A length-8192 vector laid out as a column reads, at (b, u), the vector at b. -/
private theorem col_apply {α : Type} (v : S8192.Idx → α) (h : S8192.BroadcastsInDim S8192x1 (![0] : Fin 1 → Fin S8192x1.rank))
    (b : Fin 8192) (u : Fin 1) : broadcastInDim S8192x1 ![0] h v (ix2 b u) = v (ix1 b) := by
  refine broadcastInDim_apply _ h v (ix2 b u) (ix1 b) fun a => ?_
  match a with
  | ⟨0, _⟩ => rfl

/-- A scalar laid out as a column reads the scalar at every entry. -/
private theorem scal_col_apply {α : Type} (v : S_.Idx → α) (h : S_.BroadcastsInDim S8192x1 (![] : Fin 0 → Fin S8192x1.rank))
    (i : S8192x1.Idx) : broadcastInDim S8192x1 ![] h v i = v ix0 :=
  broadcastInDim_apply _ h v i ix0 fun a => a.elim0

/-- A column broadcast along the rows reads, at (b, j), the column at (b, 0). -/
private theorem col_bcast_apply {α : Type} (v : S8192x1.Idx → α)
    (h : S8192x1.BroadcastsInDim S8192x1024 (![0, 1] : Fin 2 → Fin S8192x1024.rank)) (b : Fin 8192) (j : Fin 1024) :
    broadcastInDim S8192x1024 ![0, 1] h v (ix2 b j) = v (ix2 b (0 : Fin 1)) := by
  refine broadcastInDim_apply _ h v (ix2 b j) (ix2 b (0 : Fin 1)) fun a => ?_
  match a with
  | ⟨0, _⟩ => rfl
  | ⟨1, _⟩ => rfl

/-- A length-1024 vector laid out as one row and broadcast over the rows reads, at (b, j), the vector at j. -/
private theorem row_bcast_apply {α : Type} (v : S1024.Idx → α) (h1 : S1024.BroadcastsInDim S1x1024 (![1] : Fin 1 → Fin S1x1024.rank))
    (h2 : S1x1024.BroadcastsInDim S8192x1024 (![0, 1] : Fin 2 → Fin S8192x1024.rank)) (b : Fin 8192) (j : Fin 1024) :
    broadcastInDim S8192x1024 ![0, 1] h2 (broadcastInDim S1x1024 ![1] h1 v) (ix2 b j) = v (ix1 j) := by
  refine (broadcastInDim_apply _ h2 _ (ix2 b j) (ix2 (0 : Fin 1) j) fun a => ?_).trans ?_
  · match a with
    | ⟨0, _⟩ => rfl
    | ⟨1, _⟩ => rfl
  · refine broadcastInDim_apply _ h1 v (ix2 (0 : Fin 1) j) (ix1 j) fun a => ?_
    match a with
    | ⟨0, _⟩ => rfl

/-- The host's sum along the second axis from the initial value zero, at row b, is the sum over the 1024 entries of row b. -/
private theorem hrowsum_apply (x : FVec Ideal S8192x1024 .f32) (b : Fin 8192) :
    Host.reduceAdd (F := Ideal) (φ := .f32) x (constant (F := Ideal) S_ .f32 0x00000000#32) reducesTo_S8192x1024_S8192_d1 h_S_ (ix1 b)
      = ∑ k : Fin 1024, x (ix2 b k) := by
  unfold Host.reduceAdd
  rw [Ideal.hostReduceAdd_def]
  refine (Ideal.hostReduceAdd_single reducesTo_S8192x1024_S8192_d1 (by decide) x _ (ix1 b)).trans ?_
  rw [constant_apply, Ideal.ofBits_zero_f32, zero_add]
  refine Finset.sum_congr rfl fun k _ => congrArg x ?_
  funext a
  apply Fin.ext
  match a with
  | ⟨0, _⟩ => rfl
  | ⟨1, _⟩ => rfl

/-- The host's quotient, square root and hyperbolic tangent at an entry are the exact ones of the entries. -/
private theorem hdivf_apply {s : Shape} (x y : FVec Ideal s .f32) (i : s.Idx) : Host.divf x y i = Ideal.div (x i) (y i) := rfl
private theorem hsqrt_apply {s : Shape} (x : FVec Ideal s .f32) (i : s.Idx) : Host.sqrt x i = Ideal.sqrt (x i) := rfl
private theorem htanh_apply {s : Shape} (x : FVec Ideal s .f32) (i : s.Idx) : Host.tanh x i = Ideal.tanh (x i) := rfl

/-- The new cell state at (b, j). -/
theorem v66_apply (r : Fin 8192 → Fin 1024 → EReal) (hr : ∀ b j, a49 V (ix2 b j) = r b j) (b : Fin 8192) (j : Fin 1024) :
    a66 V (ix2 b j) = Spec.ln (fun i => aGc V (ix1 i)) (fun i => aBc V (ix1 i)) (r b) j := by
  have hr' : ∀ b j, (W V main_v49 : FVec Ideal S8192x1024 .f32) (ix2 b j) = r b j := hr
  -- the mean of the row, as the layer norm takes it
  have e82 : (W V main_cst_7 : FVec Ideal S_ .f32) = constant (F := Ideal) S_ .f32 0x00000000#32 := st_nullary V 82 rfl
  have e83 : (W V main_v50 : FVec Ideal S8192 .f32) = Host.reduceAdd (F := Ideal) (φ := .f32) (W V main_v49 : FVec Ideal S8192x1024 .f32) (W V main_cst_7 : FVec Ideal S_ .f32) reducesTo_S8192x1024_S8192_d1 h_S_ := st_binary V 83 rfl
  have e84 : (W V main_v51 : FVec Ideal S8192x1 .f32) = broadcastInDim S8192x1 ![0] bcast_S8192_S8192x1_0 (W V main_v50 : FVec Ideal S8192 .f32) := st_unary V 84 rfl
  have e85 : (W V main_cst_8 : FVec Ideal S_ .f32) = constant (F := Ideal) S_ .f32 0x44800000#32 := st_nullary V 85 rfl
  have e86 : (W V main_v52 : FVec Ideal S8192x1 .f32) = broadcastInDim S8192x1 ![] bcast_S_S8192x1 (W V main_cst_8 : FVec Ideal S_ .f32) := st_unary V 86 rfl
  have e87 : (W V main_v53 : FVec Ideal S8192x1 .f32) = Host.divf (F := Ideal) (s := S8192x1) (φ := .f32) (W V main_v51) (W V main_v52) := st_binary V 87 rfl
  have m53 : ∀ u : Fin 1, (W V main_v53 : FVec Ideal S8192x1 .f32) (ix2 b u) = Spec.mean (r b) := by
    intro u
    rw [e87, hdivf_apply, e84, col_apply, e83, e82, hrowsum_apply, e86, scal_col_apply, e85, constant_apply]
    simp only [hr']
    rfl
  -- the variance function: its own mean, the deviations, their squares' row sums
  have e89 : (W V main_call1_call0_cst : FVec Ideal S_ .f32) = constant (F := Ideal) S_ .f32 0x00000000#32 := st_nullary V 89 rfl
  have e90 : (W V main_call1_call0_v0 : FVec Ideal S8192 .f32) = Host.reduceAdd (F := Ideal) (φ := .f32) (W V main_v49 : FVec Ideal S8192x1024 .f32) (W V main_call1_call0_cst : FVec Ideal S_ .f32) reducesTo_S8192x1024_S8192_d1 h_S_ := st_binary V 90 rfl
  have e91 : (W V main_call1_call0_v1 : FVec Ideal S8192x1 .f32) = broadcastInDim S8192x1 ![0] bcast_S8192_S8192x1_0 (W V main_call1_call0_v0 : FVec Ideal S8192 .f32) := st_unary V 91 rfl
  have e92 : (W V main_call1_call0_cst_0 : FVec Ideal S_ .f32) = constant (F := Ideal) S_ .f32 0x44800000#32 := st_nullary V 92 rfl
  have e93 : (W V main_call1_call0_v2 : FVec Ideal S8192x1 .f32) = broadcastInDim S8192x1 ![] bcast_S_S8192x1 (W V main_call1_call0_cst_0 : FVec Ideal S_ .f32) := st_unary V 93 rfl
  have e94 : (W V main_call1_call0_v3 : FVec Ideal S8192x1 .f32) = Host.divf (F := Ideal) (s := S8192x1) (φ := .f32) (W V main_call1_call0_v1) (W V main_call1_call0_v2) := st_binary V 94 rfl
  have m3 : ∀ u : Fin 1, (W V main_call1_call0_v3 : FVec Ideal S8192x1 .f32) (ix2 b u) = Spec.mean (r b) := by
    intro u
    rw [e94, hdivf_apply, e91, col_apply, e90, e89, hrowsum_apply, e93, scal_col_apply, e92, constant_apply]
    simp only [hr']
    rfl
  have e95 : (W V main_call1_call0_v4 : FVec Ideal S8192x1024 .f32) = broadcastInDim S8192x1024 ![0, 1] bcast_S8192x1_S8192x1024_0_1 (W V main_call1_call0_v3 : FVec Ideal S8192x1 .f32) := st_unary V 95 rfl
  have e96 : (W V main_call1_call0_v5 : FVec Ideal S8192x1024 .f32) = subf (F := Ideal) (s := S8192x1024) (φ := .f32) (W V main_v49) (W V main_call1_call0_v4) := st_binary V 96 rfl
  have e97 : (W V main_call1_call0_v6 : FVec Ideal S8192x1024 .f32) = mulf (F := Ideal) (s := S8192x1024) (φ := .f32) (W V main_call1_call0_v5) (W V main_call1_call0_v5) := st_binary V 97 rfl
  have d5 : ∀ k : Fin 1024, (W V main_call1_call0_v5 : FVec Ideal S8192x1024 .f32) (ix2 b k) = Spec.dev (r b) k := by
    intro k
    rw [e96, subf_apply, e95, col_bcast_apply, m3, hr']
    rfl
  have e101 : (W V main_call1_call0_cst_2 : FVec Ideal S_ .f32) = constant (F := Ideal) S_ .f32 0x00000000#32 := st_nullary V 101 rfl
  have e102 : (W V main_call1_call0_v9 : FVec Ideal S8192 .f32) = Host.reduceAdd (F := Ideal) (φ := .f32) (W V main_call1_call0_v6 : FVec Ideal S8192x1024 .f32) (W V main_call1_call0_cst_2 : FVec Ideal S_ .f32) reducesTo_S8192x1024_S8192_d1 h_S_ := st_binary V 102 rfl
  have q9 : @Eq EReal ((W V main_call1_call0_v9 : FVec Ideal S8192 .f32) (ix1 b)) (∑ k : Fin 1024, Spec.dev (r b) k * Spec.dev (r b) k) := by
    rw [e102, e101, hrowsum_apply]
    refine Finset.sum_congr rfl fun k _ => ?_
    rw [e97, mulf_apply, d5]
  -- the divisor: 1024 minus the integer 1 converted, the literal 1023
  have e88 : (W V main_c_9 : IVec S_ 32) = constantI S_ 32 1#32 := st_nullary V 88 rfl
  have e98 : (W V main_call1_call0_v7 : FVec Ideal S_ .f32) = sitofp (F := Ideal) .f32 (W V main_c_9 : IVec S_ 32) := st_unary V 98 rfl
  have e99 : (W V main_call1_call0_cst_1 : FVec Ideal S_ .f32) = constant (F := Ideal) S_ .f32 0x44800000#32 := st_nullary V 99 rfl
  have e100 : (W V main_call1_call0_v8 : FVec Ideal S_ .f32) = subf (F := Ideal) (s := S_) (φ := .f32) (W V main_call1_call0_cst_1) (W V main_call1_call0_v7) := st_binary V 100 rfl
  have n8 : (W V main_call1_call0_v8 : FVec Ideal S_ .f32) ix0 = Spec.n1023 := by
    rw [e100, subf_apply, e99, constant_apply, e98, sitofp_apply, e88, constantI_apply]
    exact Cert.Consts.divisor_eq
  -- the quotient, and the closing select on 1023 > 0
  have e103 : (W V main_call1_call0_v10 : FVec Ideal S8192x1 .f32) = broadcastInDim S8192x1 ![0] bcast_S8192_S8192x1_0 (W V main_call1_call0_v9 : FVec Ideal S8192 .f32) := st_unary V 103 rfl
  have e104 : (W V main_call1_call0_v11 : FVec Ideal S8192x1 .f32) = broadcastInDim S8192x1 ![] bcast_S_S8192x1 (W V main_call1_call0_v8 : FVec Ideal S_ .f32) := st_unary V 104 rfl
  have e105 : (W V main_call1_call0_v12 : FVec Ideal S8192x1 .f32) = Host.divf (F := Ideal) (s := S8192x1) (φ := .f32) (W V main_call1_call0_v10) (W V main_call1_call0_v11) := st_binary V 105 rfl
  have q12 : ∀ u : Fin 1, (W V main_call1_call0_v12 : FVec Ideal S8192x1 .f32) (ix2 b u) = Ideal.div (∑ k : Fin 1024, Spec.dev (r b) k * Spec.dev (r b) k) Spec.n1023 := by
    intro u
    rw [e105, hdivf_apply, e103, col_apply, q9, e104, scal_col_apply, n8]
  have e106 : (W V main_call1_call0_cst_3 : FVec Ideal S_ .f32) = constant (F := Ideal) S_ .f32 0x00000000#32 := st_nullary V 106 rfl
  have e107 : (W V main_call1_call0_v13 : IVec S_ 1) = cmpf (F := Ideal) (s := S_) (φ := .f32) .ogt (W V main_call1_call0_v8) (W V main_call1_call0_cst_3) := st_binary V 107 rfl
  have c13 : (W V main_call1_call0_v13 : IVec S_ 1) ix0 = 1#1 := by
    rw [e107, cmpf_apply, n8, e106, constant_apply]
    exact Cert.Consts.divisor_pos
  have e111 := st_ternary V 111 rfl
  have e111' : (W V main_call1_v0 : FVec Ideal S8192x1 .f32) = select (broadcastInDim S8192x1 ![] bcast_S_S8192x1 (W V main_call1_call0_v13 : IVec S_ 1)) (W V main_call1_call0_v12 : FVec Ideal S8192x1 .f32) (W V main_call1_call0_call0_v1 : FVec Ideal S8192x1 .f32) := e111
  have e112 : (W V main_v54 : FVec Ideal S8192x1 .f32) = Host.sqrt (F := Ideal) (s := S8192x1) (φ := .f32) (W V main_call1_v0) := st_unary V 112 rfl
  have s54 : ∀ u : Fin 1, (W V main_v54 : FVec Ideal S8192x1 .f32) (ix2 b u) = Spec.std (r b) := by
    intro u
    rw [e112, hsqrt_apply, e111', select_apply, scal_col_apply, c13, select_one, q12]
    rfl
  -- the deviations the layer norm scales, the scale and shift rows
  have e113 : (W V main_v55 : FVec Ideal S8192x1024 .f32) = broadcastInDim S8192x1024 ![0, 1] bcast_S8192x1_S8192x1024_0_1 (W V main_v53 : FVec Ideal S8192x1 .f32) := st_unary V 113 rfl
  have e114 : (W V main_v56 : FVec Ideal S8192x1024 .f32) = subf (F := Ideal) (s := S8192x1024) (φ := .f32) (W V main_v49) (W V main_v55) := st_binary V 114 rfl
  have e115 : (W V main_v57 : FVec Ideal S1x1024 .f32) = broadcastInDim S1x1024 ![1] bcast_S1024_S1x1024_1 (W V main_arg8 : FVec Ideal S1024 .f32) := st_unary V 115 rfl
  have e116 : (W V main_v58 : FVec Ideal S8192x1024 .f32) = broadcastInDim S8192x1024 ![0, 1] bcast_S1x1024_S8192x1024_0_1 (W V main_v57 : FVec Ideal S1x1024 .f32) := st_unary V 116 rfl
  have e117 : (W V main_v59 : FVec Ideal S8192x1024 .f32) = mulf (F := Ideal) (s := S8192x1024) (φ := .f32) (W V main_v58) (W V main_v56) := st_binary V 117 rfl
  have e118 : (W V main_cst_10 : FVec Ideal S_ .f32) = constant (F := Ideal) S_ .f32 0x358637BD#32 := st_nullary V 118 rfl
  have e119 : (W V main_v60 : FVec Ideal S8192x1 .f32) = broadcastInDim S8192x1 ![] bcast_S_S8192x1 (W V main_cst_10 : FVec Ideal S_ .f32) := st_unary V 119 rfl
  have e120 : (W V main_v61 : FVec Ideal S8192x1 .f32) = addf (F := Ideal) (s := S8192x1) (φ := .f32) (W V main_v54) (W V main_v60) := st_binary V 120 rfl
  have e121 : (W V main_v62 : FVec Ideal S8192x1024 .f32) = broadcastInDim S8192x1024 ![0, 1] bcast_S8192x1_S8192x1024_0_1 (W V main_v61 : FVec Ideal S8192x1 .f32) := st_unary V 121 rfl
  have e122 : (W V main_v63 : FVec Ideal S8192x1024 .f32) = Host.divf (F := Ideal) (s := S8192x1024) (φ := .f32) (W V main_v59) (W V main_v62) := st_binary V 122 rfl
  have e123 : (W V main_v64 : FVec Ideal S1x1024 .f32) = broadcastInDim S1x1024 ![1] bcast_S1024_S1x1024_1 (W V main_arg9 : FVec Ideal S1024 .f32) := st_unary V 123 rfl
  have e124 : (W V main_v65 : FVec Ideal S8192x1024 .f32) = broadcastInDim S8192x1024 ![0, 1] bcast_S1x1024_S8192x1024_0_1 (W V main_v64 : FVec Ideal S1x1024 .f32) := st_unary V 124 rfl
  have e125 : (W V main_v66 : FVec Ideal S8192x1024 .f32) = addf (F := Ideal) (s := S8192x1024) (φ := .f32) (W V main_v63) (W V main_v65) := st_binary V 125 rfl
  have h8 : (W V main_arg8 : FVec Ideal S1024 .f32) = aGc V := W_arg8 V
  have h9 : (W V main_arg9 : FVec Ideal S1024 .f32) = aBc V := W_arg9 V
  show (W V main_v66 : FVec Ideal S8192x1024 .f32) (ix2 b j) = _
  rw [e125, addf_apply, e122, hdivf_apply, e117, mulf_apply, e116, e115, row_bcast_apply, e114, subf_apply, e113, col_bcast_apply, m53,
    hr', e121, col_bcast_apply, e120, addf_apply, s54, e119, scal_col_apply, e118, constant_apply, e124, e123, row_bcast_apply, h8, h9]
  rfl

/-- The new hidden state at (b, j). -/
theorem v74_apply (b : Fin 8192) (j : Fin 1024) :
    a74 V (ix2 b j) = Ideal.tanh (a66 V (ix2 b j)) * a73 V (ix2 b j) := by
  have e126 : (W V main_v67 : FVec Ideal S8192x1024 .f32) = Host.tanh (F := Ideal) (s := S8192x1024) (φ := .f32) (W V main_v66) := st_unary V 126 rfl
  have e135 : (W V main_v74 : FVec Ideal S8192x1024 .f32) = mulf (F := Ideal) (s := S8192x1024) (φ := .f32) (W V main_v67) (W V main_v73) := st_binary V 135 rfl
  show (W V main_v74 : FVec Ideal S8192x1024 .f32) (ix2 b j) = _
  rw [e135, mulf_apply, e126, htanh_apply]

end Cert.ReferenceIdeal.Read

end
-- ==== Proof.RefFinal.lean ====
/-
  The reference's two results as whole-array functions of its arguments, and its run.

  Chaining the four stretches — the pre-activations regrouped by gate, the gates' layer norm, the gating, the cell row's
  layer norm — entry (b, j) of the buffer the new cell state ends in is the row function `Spec.newC` of row b of the
  arguments, and the new hidden state's is tanh of it times the output gate's logistic, `Spec.newH`: the arrays
  `Whole.GC` and `Whole.GH`.
-/
import proofs.«166081_j78262894067860_1_alg».proof.Proof.RefLin
import proofs.«166081_j78262894067860_1_alg».proof.Proof.RefGateNorm
import proofs.«166081_j78262894067860_1_alg».proof.Proof.RefCell
import proofs.«166081_j78262894067860_1_alg».proof.Proof.RefCellNorm
import proofs.«166081_j78262894067860_1_alg».proof.Proof.Whole

noncomputable section

namespace Cert.ReferenceIdeal.RFinal

open Cert.ReferenceIdeal Cert.ReferenceIdeal.Gen Cert.ReferenceIdeal.Line Cert.ReferenceIdeal.Read
open Idealize.ShloMosaic Idealize.ShloMosaic.TcCoe Idealize.SL.Sem Idealize.ShloMosaic.StableHlo Idealize.ShloMosaic.ValueIdx

variable (V : Valuation τ sig (Elt Ideal))

/-- The new cell state at (b, j). -/
theorem newC_apply (b : Fin 8192) (j : Fin 1024) :
    a66 V (ix2 b j) = Whole.newCAt (aX V) (aH V) (aC V) (aWih V) (aB V) (aWhh V) (aGm V) (aBt V) (aGc V) (aBc V) b j :=
  v66_apply V _ (v49_apply V _ (v23_apply V _ (v6_apply V))) b j

/-- The new hidden state at (b, j). -/
theorem newH_apply (b : Fin 8192) (j : Fin 1024) :
    a74 V (ix2 b j) = Whole.newHAt (aX V) (aH V) (aC V) (aWih V) (aB V) (aWhh V) (aGm V) (aBt V) (aGc V) (aBc V) b j := by
  rw [v74_apply, newC_apply, v73_apply V _ (v23_apply V _ (v6_apply V))]
  rfl

/-- The new cell state as an array. -/
theorem newC_eq : a66 V = Whole.GC (aX V) (aH V) (aC V) (aWih V) (aB V) (aWhh V) (aGm V) (aBt V) (aGc V) (aBc V) := by
  funext i
  obtain ⟨b, j, rfl⟩ : ∃ (b : Fin 8192) (j : Fin 1024), i = ix2 b j := ⟨i 0, i 1, eq_ix2 i⟩
  rw [Whole.GC_ix2]
  exact newC_apply V b j

/-- The new hidden state as an array. -/
theorem newH_eq : a74 V = Whole.GH (aX V) (aH V) (aC V) (aWih V) (aB V) (aWhh V) (aGm V) (aBt V) (aGc V) (aBc V) := by
  funext i
  obtain ⟨b, j, rfl⟩ : ∃ (b : Fin 8192) (j : Fin 1024), i = ix2 b j := ⟨i 0, i 1, eq_ix2 i⟩
  rw [Whole.GH_ix2]
  exact newH_apply V b j

/-- The reference's run with both results named as functions of the launch contents of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74)
          = Whole.GH (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_v66)
          = Whole.GC (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(h c main_v74).trans (newH_eq (launchContents m c)),
     (h c main_v66).trans (newC_eq (launchContents m c)),
     (h c main_arg0).trans (W_arg0 _), (h c main_arg1).trans (W_arg1 _), (h c main_arg2).trans (W_arg2 _),
     (h c main_arg3).trans (W_arg3 _), (h c main_arg4).trans (W_arg4 _), (h c main_arg5).trans (W_arg5 _),
     (h c main_arg6).trans (W_arg6 _), (h c main_arg7).trans (W_arg7 _), (h c main_arg8).trans (W_arg8 _),
     (h c main_arg9).trans (W_arg9 _)⟩) (Line.run_main m ρ)

end Cert.ReferenceIdeal.RFinal

end
-- ==== Proof.lean ====
/-
  An LSTM cell whose four gates and whose cell state are layer-normalised, as one fused kernel over blocks of 256 batch
  rows, against its array-at-a-time reference: the certificate's claims.

  Both programs compute, for every batch row b, the row function of `Spec`: the 4096 pre-activations x_b · W_ihᵀ + h_b ·
  W_hhᵀ + bias; the four gates of 1024 entries, each normalised along the row (mean over 1024, standard deviation with
  divisor 1023, a small constant added to it) with its own scale and shift; the cell row c_b · σ(f + 1) + σ(i) · tanh(g),
  normalised the same way with the cell's scale and shift; and the hidden row tanh(new cell) · σ(o). The kernel rounds
  the input, the hidden state and both weight matrices to half precision before multiplying, adds the bias after the
  second product, and calls the logistic function; the reference multiplies in single precision, adds the bias between
  the two products, spells the logistic as 1 / (1 + exp(−·)) and computes each mean twice. Over the extended reals a
  change of float format is the identity, addition is commutative and associative, and the logistic function is that
  quotient, so the two programs' results are the same arrays `Whole.GH` and `Whole.GC` of the arguments. No step
  needs the arguments to be finite: the precondition is not used.

  The kernel's two frames are the generated frame certificates. Its result arrays come from the generated blockwise run
  (each grid point writes its 256 rows; the 32 points tile the 8192 rows). The reference's run is its 136 host
  operations as one straight line in single-assignment order, read stretch by stretch at an index.
-/
import proofs.«166081_j78262894067860_1_alg».proof.Defs
import proofs.«166081_j78262894067860_1_alg».proof.Proof.Gen.Kernel
import proofs.«166081_j78262894067860_1_alg».proof.Proof.Gen.Kernel.Skeleton
import proofs.«166081_j78262894067860_1_alg».proof.Proof.Gen.Kernel.Launch
import proofs.«166081_j78262894067860_1_alg».proof.Proof.Gen.Kernel.Points
import proofs.«166081_j78262894067860_1_alg».proof.Proof.Gen.Kernel.Frame
import proofs.«166081_j78262894067860_1_alg».proof.Proof.Gen.KernelIdeal
import proofs.«166081_j78262894067860_1_alg».proof.Proof.Gen.KernelIdeal.Skeleton
import proofs.«166081_j78262894067860_1_alg».proof.Proof.Gen.KernelIdeal.Launch
import proofs.«166081_j78262894067860_1_alg».proof.Proof.Gen.KernelIdeal.Points
import proofs.«166081_j78262894067860_1_alg».proof.Proof.Gen.KernelIdeal.Frame
import proofs.«166081_j78262894067860_1_alg».proof.Proof.Gen.ReferenceIdeal
import proofs.«166081_j78262894067860_1_alg».proof.Proof.Gen.Pre_finite_inputs
import proofs.«166081_j78262894067860_1_alg».proof.Proof.KBlocks
import proofs.«166081_j78262894067860_1_alg».proof.Proof.RefFinal
import Idealize.ShloMosaic.Adequacy
import Idealize.ShloMosaic.Init

noncomputable section

namespace Cert.Proof

open Idealize.ShloMosaic Idealize.SL.Sem

/-- The kernel as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, the two results dropped. -/
theorem frame_reference : Cert.frame_ReferenceIdeal := fun m ρ _ =>
  (θ_run Cert.ReferenceIdeal.defs _ _).mono (fun _ h c => (h c).2.2) (Cert.ReferenceIdeal.RFinal.run m ρ)

/-- From memories that agree on the ten arguments both programs end with the new hidden state at `Whole.GH` and the
    new cell state at `Whole.GC` of those arguments. -/
theorem algebraic : Cert.algebraic_KernelIdeal_ReferenceIdeal := by
  intro m ρ m' ρ' _ hagree
  refine ⟨_, _, Cert.KernelIdeal.KFinal.run m ρ, ?_⟩
  refine (θ_run Cert.ReferenceIdeal.defs _ _).mono (fun r h c => ⟨(h c).1.trans ?_, (h c).2.1.trans ?_, (h c).2.2⟩)
    (Cert.ReferenceIdeal.RFinal.run m' ρ')
  · obtain ⟨h0, h1, h2, h3, h4, h5, h6, h7, h8, h9⟩ := hagree c
    rw [h0, h1, h2, h3, h4, h5, h6, h7, h8, h9]
  · obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
